-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  main_v3
-- ==== Kernel.lean ====
abbrev S32x2048x64 : Shape := ⟨3, ![32, 2048, 64]⟩
abbrev S32x8x128 : Shape := ⟨3, ![32, 8, 128]⟩
abbrev S1x512x64 : Shape := ⟨3, ![1, 512, 64]⟩
abbrev S1x2048x64 : Shape := ⟨3, ![1, 2048, 64]⟩
abbrev S1x8x128 : Shape := ⟨3, ![1, 8, 128]⟩
abbrev S512x64 : Shape := ⟨2, ![512, 64]⟩
abbrev S2048x64 : Shape := ⟨2, ![2048, 64]⟩
abbrev S512 : Shape := ⟨1, ![512]⟩
abbrev S2048 : Shape := ⟨1, ![2048]⟩
abbrev S64x2048 : Shape := ⟨2, ![64, 2048]⟩
abbrev S512x2048 : Shape := ⟨2, ![512, 2048]⟩
abbrev S512x1 : Shape := ⟨2, ![512, 1]⟩
abbrev S1x2048 : Shape := ⟨2, ![1, 2048]⟩
abbrev S1x512 : Shape := ⟨2, ![1, 512]⟩
abbrev S1 : Shape := ⟨1, ![1]⟩
abbrev S1x1 : Shape := ⟨2, ![1, 1]⟩
abbrev S32x1x1 : Shape := ⟨3, ![32, 1, 1]⟩
abbrev S32 : Shape := ⟨1, ![32]⟩
abbrev S_ : Shape := ⟨0, ![]⟩

abbrev nBuf : Space → Nat
  | .hbm => 20
  | .vmem => 8
  | .smem => 0
  | _ => 0

abbrev bufTy : (tb : Table) → Fin (tcTables nBuf tb) → BufTy
  | .hbm, ⟨0, _⟩ => ⟨S32x2048x64, .f32⟩
  | .hbm, ⟨1, _⟩ => ⟨S32x8x128, .f32⟩
  | .hbm, ⟨2, _⟩ => ⟨S32x8x128, .f32⟩
  | .hbm, ⟨3, _⟩ => ⟨S32x1x1, .f32⟩
  | .hbm, ⟨4, _⟩ => ⟨S32, .f32⟩
  | .hbm, ⟨5, _⟩ => ⟨S32x1x1, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x64_S512 : S512x64.Reduces [1] S512
  reduces_S2048x64_S2048 : S2048x64.Reduces [1] S2048
  bitsLt_bf16_f32 : FTy.bits .bf16 < FTy.bits .f32
  transposes_S2048x64_p1_0_S64x2048 : S2048x64.Transposes [1, 0] S64x2048
  shapeCasts_S512_S512x1 : S512.ShapeCasts S512x1
  shapeCasts_S2048_S1x2048 : S2048.ShapeCasts S1x2048
  broadcasts_S512x1_S512x2048 : S512x1.Broadcasts S512x2048
  broadcasts_S1x2048_S512x2048 : S1x2048.Broadcasts S512x2048
  reduces_S512x2048_S512 : S512x2048.Reduces [1] S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  shapeCasts_S1x8x128_S1x8x128 : S1x8x128.ShapeCasts S1x8x128
  slices_S32x8x128_S32x1x1_0_0_0 : S32x8x128.Slices ![0, 0, 0] S32x1x1
  shapeCasts_S32x1x1_S32 : S32x1x1.ShapeCasts S32
  bcast_S_S32 : S_.BroadcastsInDim S32 (![] : Fin 0 → Fin S32.rank)
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S32x8x128.size a
  hwx0_2 : ∀ i : grid0.Coords, EltTy.bits .f32 = 32 ∨ (Rect.block (s := S32x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S32x8x128.size a
  hwx0_3 : ∀ i : grid0.Coords, EltTy.bits .f32 = 32 ∨ (Rect.block (s := S32x8x128) S1x8x128.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S_ : Shape := ⟨0, ![]⟩
abbrev S32x2048 : Shape := ⟨2, ![32, 2048]⟩
abbrev S32x2048x2048 : Shape := ⟨3, ![32, 2048, 2048]⟩
abbrev S32x2048x1 : Shape := ⟨3, ![32, 2048, 1]⟩
abbrev S32x1x2048 : Shape := ⟨3, ![32, 1, 2048]⟩
abbrev S32 : Shape := ⟨1, ![32]⟩

abbrev nBuf : Space → Nat
  | .hbm => 41
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S_, .f32⟩
  | .hbm, ⟨3, _⟩ => ⟨S32x2048, .f32⟩
  | .hbm, ⟨4, _⟩ => ⟨S32x2048x2048, .f32⟩
  | .hbm, ⟨5, _⟩ => ⟨S32x2048x1, .f32⟩
  | .hbm, ⟨6, _⟩ => ⟨S32x1x2048, .f32⟩
  | .hbm, ⟨7, _⟩ => ⟨S32x2048x2048, .f32⟩
  | .hbm, ⟨8, _⟩ => ⟨S32x2048x2048, .f32⟩
  | .hbm, ⟨9, _⟩ => ⟨S32x2048x2048, .f32⟩
  | .hbm, ⟨10, _⟩ => ⟨S_, .f32⟩
  | .hbm, ⟨11, _⟩ => ⟨S32x2048x2048, .f32⟩
  | .hbm, ⟨12, _⟩ => ⟨S32x2048x2048, .f32⟩
  | .hbm, ⟨13, _⟩ => ⟨S32x2048x2048, .f32⟩
  | .hbm, ⟨14, _⟩ => ⟨S32x2048x2048, .f32⟩
  | .hbm, ⟨15, _⟩ => ⟨S_, .f32⟩
  | .hbm, ⟨16, _⟩ => ⟨S32x2048x2048, .f32⟩
  | .hbm, ⟨17, _⟩ => ⟨S32x2048x2048, .f32⟩
  | .hbm, ⟨18, _⟩ => ⟨S32x2048x2048, .f32⟩
  | .hbm, ⟨19, _⟩ => ⟨S32x2048, .f32⟩
  | .hbm, ⟨20, _⟩ => ⟨S_, .f32⟩
  | .hbm, ⟨21, _⟩ => ⟨S32x2048, .f32⟩
  | .hbm, ⟨22, _⟩ => ⟨S32x2048, .f32⟩
  | .hbm, ⟨23, _⟩ => ⟨S32x2048, .f32⟩
  | .hbm, ⟨24, _⟩ => ⟨S_, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S32, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_v26 : Ref sig .tc := ⟨.hbm, 36, rfl⟩
abbrev main_cst_8 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  reducesTo_S32x2048x64_S32x2048_d2 : S32x2048x64.ReducesTo [2] S32x2048
  h_S_ : 0 < S_.numel
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  bcast_S_S32x2048 : S_.BroadcastsInDim S32x2048 (![] : Fin 0 → Fin S32x2048.rank)
  reducesTo_S32x2048x2048_S32_d1_2 : S32x2048x2048.ReducesTo [1, 2] S32
  bcast_S_S32 : S_.BroadcastsInDim S32 (![] : Fin 0 → Fin S32.rank)
  reducesTo_S32x2048_S32_d1 : S32x2048.ReducesTo [1] S32
  dot_S32x2048x64_S32x2048x64_S32x2048x2048_2_2_1_1_0_0_wf : DotDims.WF S32x2048x64 S32x2048x64 S32x2048x2048 [2] [2] [1] [1] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf

class Facts : Prop extends Facts₀ where

variable [Facts]
-- ==== Proof.K.Runs.lean ====
/-
  What the two control cases of the kernel body share.

  The main function is the kernel region followed by seventeen host operations.  The region is entered at the launch
  contents.  The grid has 32 × 4 points, point t = 4·b + i working on cloud b and row tile i.  Window 0 is the tile's
  512 rows, window 1 the cloud's 2048 rows (both of the one input array), windows 2 and 3 the two 8×128 accumulator
  blocks of cloud b.  The body resets both accumulators exactly at the points with i = 0.
-/
import proofs.«136958_j60129542698_1_alg».proof.Proof.Gen.Kernel.Launch
import proofs.«136958_j60129542698_1_alg».proof.Proof.Gen.Kernel.Skeleton
import proofs.«136958_j60129542698_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function around the region -/

/-- Core `c`'s buffer contents when the region is entered, as a valuation: the launch contents (no host operation
    comes before the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The references the host operations after the region write. -/
abbrev hostOps1_W : List (Ref sig .tc) :=
  [main_v1, main_v2, main_v3, main_v4, main_cst, main_v5, main_v6, main_cst_0, main_v7, main_v8, main_cst_1, main_v9, main_v10,
    main_cst_2, main_v11, main_v12, main_v13]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))

/-- The main function reduces to the region continued by the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The operations after the region touch unscoped TensorCore buffers only. -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array of the pipeline: each writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  have h := (List.forall_iff_forall_mem.mp hostOps1_writes) op hop hmem
  rw [List.mem_toFinset, List.mem_map] at h
  obtain ⟨r, hr, e⟩ := h
  have e' : r = Pipeline.arrRef spec0 w := Proc.devRef_injective (τ := τ) _ e
  subst e'
  revert hr
  fin_cases w <;> decide

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile's staging buffer holds its block at every point, for any proof data whose array is the entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The cloud's staging buffer holds its block at every point, fetched there or not (between fetches the block
    index does not move). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional, from the grid coordinates: the tile index is zero. -/
abbrev cond0_0 (i : grid0.Coords) : Prop := (Scalar.cmpi .ne (Scalar.extui (Scalar.cmpi .eq (BitVec.ofNat 32 (i 1).val) 0#32)) 0#32) = 1#1
/-- It holds at the points ≡ 0 (mod 4), decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of each accumulator window, through which its contents are stated. -/
abbrev VO0_2 : View sig .tc .vmem S1x8x128 .f32 := (Memref.whole cc0_stg2_0 : Memref sig .tc .vmem S1x8x128 .f32).view
abbrev VO0_3 : View sig .tc .vmem S1x8x128 .f32 := (Memref.whole cc0_stg3_0 : Memref sig .tc .vmem S1x8x128 .f32).view
/-- Each window's current staging memref at point `t`, spelled as the pipeline passes it, and its wholeness. -/
abbrev ms0_0 (t : Fin cfg0.N) : Memref sig .tc .vmem S1x512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)

end Cert.Kernel.Hand

end
-- ==== Proof.K.RunA.lean ====
/-
  The whole-body run of the kernel at a point with tile index zero: both accumulators are reset to the zero block,
  then each gains the tile's share.  The accumulators' buffers may hold anything when the body starts.
-/
import proofs.«136958_j60129542698_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each accumulator's staging memref, as pieces (last first), with the proof that
    on whole staging memrefs the body runs to a continuation holding the inputs' buffers as they were and each
    accumulator's buffer with its pieces written. -/
noncomputable def kernelRun0_A (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x512x64 .f32) (x1 : Vec F S1x2048x64 .f32) :
    Σ' (L2 : List (View.Piece (Elt F) S1x8x128 .f32)), { L3 : List (View.Piece (Elt F) S1x8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__mmd_kernel i arg2 harg2 arg3 harg3 arg4 harg4 arg5 harg5) K } := by
  refine ⟨?_, ?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand

end
-- ==== Proof.K.RunB.lean ====
/-
  The whole-body run of the kernel at a point with tile index not zero: nothing is reset, each accumulator gains the
  tile's share over what the point before left in its buffer.
-/
import proofs.«136958_j60129542698_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each accumulator's staging memref, as pieces (last first), with the proof that
    on whole staging memrefs the body runs to a continuation holding the inputs' buffers as they were and each
    accumulator's buffer with its pieces written. -/
noncomputable def kernelRun0_B (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x512x64 .f32) (x1 : Vec F S1x2048x64 .f32) (xo2 : Vec F S1x8x128 .f32) (xo3 : Vec F S1x8x128 .f32) :
    Σ' (L2 : List (View.Piece (Elt F) S1x8x128 .f32)), { L3 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__mmd_kernel i arg2 harg2 arg3 harg3 arg4 harg4 arg5 harg5) K } := by
  refine ⟨?_, ?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand

end
-- ==== Proof.K.Arrays.lean ====
/-
  The one input array is read through two windows (the row tile and the whole cloud): the buffer behind both is held
  whole, and its full share is dealt in halves, the left half to window 0 and the right half to window 1.  The two
  accumulator arrays are each behind one window, held at the full share.  So the three distinct buffers behind the
  four windows' arrays, whole at a valuation, are exactly the proof data's four arrays at the contents the valuation
  gives them, in both directions.
-/
import proofs.«136958_j60129542698_1_alg».proof.Proof.Gen.Kernel.Launch
import Idealize.ShloMosaic.Lib.Pipeline.Kit
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- The proof data's arrays, window by window: the input array's two halves and the two accumulators whole. -/
theorem arrays_eq4 {c : Dev nD} (dat : Dat τ (Elt F) Unit ℕ (UR sig nD τ) ℕ cfg0 c)
    (hq0 : dat.q 0 = fullShare.left) (hq1 : dat.q 1 = fullShare.right)
    (W : (b : Ref sig .tc) → Buf (Elt F) ((c.tc : Thread nD τ).loc b)) :
    (dat.arrays (fun w => W (Pipeline.arrRef spec0 w)) : sProp 𝕄)
      = iprop((((c.tc : Thread nD τ).loc main_arg0) ↦{fullShare.left} W main_arg0)
          ∗ (((c.tc : Thread nD τ).loc main_arg0) ↦{fullShare.right} W main_arg0)
          ∗ (((c.tc : Thread nD τ).loc main_v0_0) ↦{fullShare} W main_v0_0)
          ∗ (((c.tc : Thread nD τ).loc main_v0_1) ↦{fullShare} W main_v0_1)) := by
  have hs0 : dat.share 0 = fullShare.left := by unfold Dat.share; rw [if_neg (by decide), hq0]
  have hs1 : dat.share 1 = fullShare.right := by unfold Dat.share; rw [if_neg (by decide), hq1]
  have hs2 : dat.share 2 = fullShare := by unfold Dat.share; rw [if_pos (by decide)]
  have hs3 : dat.share 3 = fullShare := by unfold Dat.share; rw [if_pos (by decide)]
  unfold Dat.arrays
  refine (bigSep_W0 _).trans ?_
  -- windows 0 and 1 are on one array: one rewriting turns both
  rw [(arr_whole0 0).set_eq_univ, (arr_whole0 2).set_eq_univ, (arr_whole0 3).set_eq_univ, hs0, hs1, hs2, hs3]

/-- The three distinct buffers behind the four windows' arrays, one by one. -/
theorem arrBufs_eq3 {c : Dev nD} (W : (b : Ref sig .tc) → Buf (Elt F) ((c.tc : Thread nD τ).loc b)) :
    (Pipeline.arrBufs spec0 c W : sProp 𝕄)
      = iprop((((c.tc : Thread nD τ).loc main_arg0) ↦{fullShare} W main_arg0)
          ∗ (((c.tc : Thread nD τ).loc main_v0_0) ↦{fullShare} W main_v0_0)
          ∗ (((c.tc : Thread nD τ).loc main_v0_1) ↦{fullShare} W main_v0_1)) := by
  unfold Pipeline.arrBufs
  exact bigSep_eq_bigSepL_of_eq [main_arg0, main_v0_0, main_v0_1] (by decide) (by decide) _

/-- The buffers behind the arrays, whole at `W`, make the proof data's arrays at the contents `W` gives each. -/
theorem arrays_of_arrBufs {c : Dev nD} (dat : Dat τ (Elt F) Unit ℕ (UR sig nD τ) ℕ cfg0 c)
    (hq0 : dat.q 0 = fullShare.left) (hq1 : dat.q 1 = fullShare.right)
    (A : (w : Fin cfg0.W) → Buf (Elt F) ((cfg0.win w).arr.view.loc (c.tc : Thread nD τ)))
    (W : (b : Ref sig .tc) → Buf (Elt F) ((c.tc : Thread nD τ).loc b))
    (hA : ∀ w, A w = W (Pipeline.arrRef spec0 w)) :
    (Pipeline.arrBufs spec0 c W : sProp 𝕄) ⊢ dat.arrays A := by
  obtain rfl : A = fun w => W (Pipeline.arrRef spec0 w) := funext hA
  rw [arrays_eq4 dat hq0 hq1 W, arrBufs_eq3 W]
  iintro ⟨H0, H2, H3⟩
  ihave H0 := (pointsTo_share (PosShare.mem_left_op_right fullShare)).1 $$ H0
  icases H0 with ⟨H0l, H0r⟩
  isplitl [H0l]; · iexact H0l
  isplitl [H0r]; · iexact H0r
  isplitl [H2] <;> iassumption

/-- And back: the proof data's arrays, at contents that agree on the shared array, are the buffers whole at `W`. -/
theorem arrBufs_of_arrays {c : Dev nD} (dat : Dat τ (Elt F) Unit ℕ (UR sig nD τ) ℕ cfg0 c)
    (hq0 : dat.q 0 = fullShare.left) (hq1 : dat.q 1 = fullShare.right)
    (A : (w : Fin cfg0.W) → Buf (Elt F) ((cfg0.win w).arr.view.loc (c.tc : Thread nD τ)))
    (W : (b : Ref sig .tc) → Buf (Elt F) ((c.tc : Thread nD τ).loc b))
    (hA : ∀ w, A w = W (Pipeline.arrRef spec0 w)) :
    dat.arrays A ⊢ (Pipeline.arrBufs spec0 c W : sProp 𝕄) := by
  obtain rfl : A = fun w => W (Pipeline.arrRef spec0 w) := funext hA
  rw [arrays_eq4 dat hq0 hq1 W, arrBufs_eq3 W]
  iintro ⟨H0l, H0r, H2, H3⟩
  ihave H0 := (pointsTo_share (PosShare.mem_left_op_right fullShare)).2 $$ [H0l H0r]
  · isplitl [H0l] <;> iassumption
  isplitl [H0]; · iexact H0
  isplitl [H2] <;> iassumption

end Cert.Kernel.Hand

end
-- ==== Proof.LibSharedAround.lean ====
/-
  The frame run of a one-region pipeline whose input windows may share an array, when the main function goes on
  after the region with lines of host operations.

  A kernel may be handed one array through several input windows.  The buffers behind the windows' arrays are then
  fewer than the windows, and neither the launch nor the lines after the region can treat "each window's array at
  the full share" as a family of distinct buffers.  What replaces it is said by three entailments about the
  distinct buffers behind the arrays (`arrBufs`): at the entry they make the proof data's arrays at the entry
  contents (`hsplit`); at the exit the arrays, at what the write-backs leave, are those buffers again at a
  valuation `VN` of the proof's choosing (`hjoin`), and back (`hsplitN`).  `VN` agrees with the entry valuation on
  every buffer that is no window's array (`hVN`).  The lines after the region run within the core's unscoped buffers
  and write no array.

  The conclusion: every weakly fair execution terminates; every window's array ends at the proof data's
  `arrAt · N`, and every other unscoped buffer at the fold of the lines over `VN`.
-/
import Idealize.ShloMosaic.Lib.Pipeline.Kit
import Idealize.ShloMosaic.Lib.Pipeline.Frame
import Idealize.ShloMosaic.Lib.Pipeline.FrameSuffix

noncomputable section

namespace Idealize.ShloMosaic

open Idealize.SL
open Idealize.SL.BI (sProp bigSep bigSep_congr)
open scoped Idealize.SL.BI
open Idealize.SL.BI.BIBase Idealize.SL.BI.Laws Idealize.SL.Sem Idealize.SL.ProofMode
open Idealize.SL.RA
open TcCoe

namespace Pipeline

open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs))
  (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

/-- What the run leaves: the arrays at the proof data's final contents, every other unscoped buffer at the fold of
    the lines after the region over the exit valuation. -/
def SharedAroundPost (VN : Dev nD → Valuation τ sig Val) (opss : List (List (HloOp τ sig Val)))
    (r : PUnit × MemSt nD τ sig Val) : Prop :=
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = StableHlo.after opss.flatten (VN c) (Proc.devRef .tc b)

include hinj hw in
set_option backward.isDefEq.respectTransparency.types false in
/-- THE FRAME RUN for windows that may share arrays, the region followed by host lines. -/
theorem θ_run_frame_shared_around
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V₀ VN : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hVN : ∀ c, ∀ b ∈ restRefs sig (cfg).spec, VN c (Proc.devRef .tc b) = V₀ c (Proc.devRef .tc b))
    (hjoin : ∀ c, (dats p c).arrays ((dats p c).arrAt · (cfg).N) ⊢ (arrBufs (cfg).spec c (fun b => VN c (Proc.devRef .tc b)) : sProp 𝕄))
    (hsplitN : ∀ c, (arrBufs (cfg).spec c (fun b => VN c (Proc.devRef .tc b)) : sProp 𝕄) ⊢ (dats p c).arrays ((dats p c).arrAt · (cfg).N))
    (hin : ∀ c, (ΦA (cfg).spec c : sProp 𝕄) ⊢ (dats p c).Φ 0)
    (hout : ∀ c, (dats p c).Φ (Fin.last (cfg).N) ⊢ (ΦA (cfg).spec c : sProp 𝕄)) :
    θ_run 𝔻 (onTc main) (s₀ m g) (SharedAroundPost cfgs dats p VN opss) := by
  classical
  have htail : ∀ (c : Dev nD) (Q' : PUnit → sProp 𝕄),
      iprop((iprop((dats p c).arrays ((dats p c).arrAt · (cfg).N)
              ∗ unscopedRest (Ix := Unit) (Name := ℕ) (U := UR sig nD τ) (Lvl := ℕ) (cfg).spec c (fun b => StableHlo.after opss.flatten (VN c) (Proc.devRef .tc b))) -∗ Q' ⟨⟩)
          ∗ boundary (c.tc : Thread nD τ) ∗ (dats p c).arrays ((dats p c).arrAt · (cfg).N)
          ∗ unscopedRest (Ix := Unit) (Name := ℕ) (U := UR sig nD τ) (Lvl := ℕ) (cfg).spec c (fun b => V₀ c (Proc.devRef .tc b)))
        ⊢ wp frame (wpE 𝔻 (Variants.lift 𝒱₀) (c.tc : Thread nD τ) none) Set.univ (chain (opss.map StableHlo.seq)) Q' := by
    intro c Q'
    have hZ : (unscopedRest (Ix := Unit) (Name := ℕ) (U := UR sig nD τ) (Lvl := ℕ) (cfg).spec c (fun b => V₀ c (Proc.devRef .tc b)) : sProp 𝕄)
        = unscopedRest (cfg).spec c (fun b => VN c (Proc.devRef .tc b)) := by
      unfold unscopedRest
      exact bigSep_congr fun b hb => by dsimp only; rw [hVN c b hb]
    -- the buffers behind the arrays and the rest of the unscoped buffers are all the unscoped buffers
    have hheld : ∀ Wv : Valuation τ sig Val,
        (iprop(arrBufs (cfg).spec c (fun b => Wv (Proc.devRef .tc b)) ∗ unscopedRest (cfg).spec c (fun b => Wv (Proc.devRef .tc b))) : sProp 𝕄)
          = StableHlo.held (c.tc : Thread nD τ) (ucRefs τ sig) Wv := fun Wv => by
      rw [← unscopedBufs_split₀ cfgs p hw.arr_unscoped c, unscopedBufs_held]
    -- the lines write no array
    have hA : (arrBufs (Ix := Unit) (Name := ℕ) (U := UR sig nD τ) (Lvl := ℕ) (cfg).spec c (fun b => StableHlo.after opss.flatten (VN c) (Proc.devRef .tc b)) : sProp 𝕄)
        = arrBufs (cfg).spec c (fun b => VN c (Proc.devRef .tc b)) := by
      unfold arrBufs
      refine bigSep_congr fun b hb => ?_
      obtain ⟨w, -, rfl⟩ := Finset.mem_image.mp hb
      dsimp only
      rw [StableHlo.after_of_forall_not_mem _ _ fun op hop => ?_]
      obtain ⟨ops, hops, hop⟩ := List.mem_flatten.mp hop
      exact hkeep ops hops op hop w
    have hpre : iprop((dats p c).arrays ((dats p c).arrAt · (cfg).N)
          ∗ unscopedRest (Ix := Unit) (Name := ℕ) (U := UR sig nD τ) (Lvl := ℕ) (cfg).spec c (fun b => V₀ c (Proc.devRef .tc b)))
        ⊢ (StableHlo.held (c.tc : Thread nD τ) (ucRefs τ sig) (VN c) : sProp 𝕄) := by
      rw [hZ, ← hheld]
      exact sep_mono (hjoin c) .rfl
    have hpost : (StableHlo.held (c.tc : Thread nD τ) (ucRefs τ sig) (StableHlo.after opss.flatten (VN c)) : sProp 𝕄)
        ⊢ iprop((dats p c).arrays ((dats p c).arrAt · (cfg).N)
          ∗ unscopedRest (Ix := Unit) (Name := ℕ) (U := UR sig nD τ) (Lvl := ℕ) (cfg).spec c (fun b => StableHlo.after opss.flatten (VN c) (Proc.devRef .tc b))) := by
      rw [← hheld, hA]
      exact sep_mono (hsplitN c) .rfl
    rw [← List.append_nil (opss.map StableHlo.seq)]
    iintro ⟨Hk, Hb, HAZ⟩
    ihave Hh := hpre $$ HAZ
    iapply (wp_seqs_then (fun q => (cfgs q).toPCfg (Val := Val)) defs₀ 𝒱₀ c (ucRefs τ sig) [] opss hsub hfresh (VN c)) $$ [Hb Hh]
    · isplitl [Hb] <;> iassumption
    iintro ⟨-, Hh⟩
    rw [chain_nil, wp_pure]
    imodintro
    iapply Hk
    iapply hpost
    iexact Hh
  exact θ_run_region_pf_tail (fun q => (cfgs q).toPCfg (Val := Val)) (fun q => (cfgs q).toPCfg_adm) dats () hinj p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (VN c) (Proc.devRef .tc b)))
    (hX := fun c => by
      rw [unscopedRestP_none]
      iintro ⟨HU, -, -, -, Hp, -⟩; imodintro
      isplitl [Hp]; · iexists _; iexact Hp
      iexact HU)
    (hin := fun c => (show _ ⊢ (ΦA (cfg).spec c : sProp 𝕄) by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := htail)
    (QY := fun c s => ∀ b ∈ restRefs sig (cfg).spec, s.mem ((c.tc : Thread nD τ).loc b) = StableHlo.after opss.flatten (VN c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (VN c) (Proc.devRef .tc b)) s')
      isplitl [HU] <;> iassumption)
    (hQ := fun s h c => ⟨(h c).1, (h c).2.2⟩)

end Pipeline

end Idealize.ShloMosaic

end
-- ==== Proof.K.Frame.lean ====
/-
  The frame of the kernel program: it runs to the end, faults nowhere, and leaves its input array unchanged.

  What the two accumulator buffers hold after each grid point is defined by recursion on the point: at a point with
  tile index zero, what the reset-and-add case leaves; at any other point, what the add case leaves over what the point
  before left (the accumulators' blocks are written back only after a cloud's last tile, so between the tiles of one
  cloud the buffers are carried).  With these as the proof data, the body obligation holds at every point by cases
  on the tile index, and the launch (two input windows on one array, host operations after the region) gives the
  run.
-/
import proofs.«136958_j60129542698_1_alg».proof.Proof.K.RunB
import proofs.«136958_j60129542698_1_alg».proof.Proof.K.Arrays
import proofs.«136958_j60129542698_1_alg».proof.Proof.LibSharedAround

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A: the stores into the first accumulator's buffer tile its block, so they cover it. -/
theorem cover0_A_2 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x512x64 .f32) (x1 : Vec F S1x2048x64 .f32) (y : S1x8x128.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x8x128.size (by sl_kernel_rfl) y
/-- What case A leaves in the first accumulator's buffer: its pieces read back. -/
def out0_A_2 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x512x64 .f32) (x1 : Vec F S1x2048x64 .f32) : Vec F S1x8x128 .f32 :=
  VO0_2.read (Elt F) (VO0_2.writes (Elt F) VO0_2.junk (kernelRun0_A c i arg2 harg2 arg3 harg3 arg4 harg4 arg5 harg5 hc0 x0 x1).1)
/-- Case A: the stores into the second accumulator's buffer cover its block. -/
theorem cover0_A_3 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x512x64 .f32) (x1 : Vec F S1x2048x64 .f32) (y : S1x8x128.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x8x128.size (by sl_kernel_rfl) y
/-- What case A leaves in the second accumulator's buffer. -/
def out0_A_3 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x512x64 .f32) (x1 : Vec F S1x2048x64 .f32) : Vec F S1x8x128 .f32 :=
  VO0_3.read (Elt F) (VO0_3.writes (Elt F) VO0_3.junk (kernelRun0_A c i arg2 harg2 arg3 harg3 arg4 harg4 arg5 harg5 hc0 x0 x1).2.1)

/-- Case B: the stores into the first accumulator's buffer tile its block, so they cover it. -/
theorem cover0_B_2 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x512x64 .f32) (x1 : Vec F S1x2048x64 .f32) (xo2 : Vec F S1x8x128 .f32) (xo3 : Vec F S1x8x128 .f32) (y : S1x8x128.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x8x128.size (by sl_kernel_rfl) y
/-- What case B leaves in the first accumulator's buffer: its pieces read back. -/
def out0_B_2 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x512x64 .f32) (x1 : Vec F S1x2048x64 .f32) (xo2 : Vec F S1x8x128 .f32) (xo3 : Vec F S1x8x128 .f32) : Vec F S1x8x128 .f32 :=
  VO0_2.read (Elt F) (VO0_2.writes (Elt F) VO0_2.junk (kernelRun0_B c i arg2 harg2 arg3 harg3 arg4 harg4 arg5 harg5 hc0 x0 x1 xo2 xo3).1)
/-- Case B: the stores into the second accumulator's buffer cover its block. -/
theorem cover0_B_3 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x512x64 .f32) (x1 : Vec F S1x2048x64 .f32) (xo2 : Vec F S1x8x128 .f32) (xo3 : Vec F S1x8x128 .f32) (y : S1x8x128.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x8x128.size (by sl_kernel_rfl) y
/-- What case B leaves in the second accumulator's buffer. -/
def out0_B_3 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x512x64 .f32) (x1 : Vec F S1x2048x64 .f32) (xo2 : Vec F S1x8x128 .f32) (xo3 : Vec F S1x8x128 .f32) : Vec F S1x8x128 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- What the two accumulators' staging buffers hold after the body at position `n`. -/
def outsAt0 (c : Dev nD) : (n : ℕ) → n < cfg0.N → Vec F S1x8x128 .f32 × Vec F S1x8x128 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2)

/-- At a point with tile index zero: the reset-and-add case's contents. -/
theorem outsAt0_A (c : Dev nD) (t : Fin cfg0.N) (h0 : t.val % 4 = 0) :
    outsAt0 m c t.val t.isLt =
      (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At any other point: the add case's contents, over what the point before left. -/
theorem outsAt0_B (c : Dev nD) (t : Fin cfg0.N) (h0 : ¬t.val % 4 = 0) :
    outsAt0 m c t.val t.isLt =
      (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer
    at its block and the accumulators' at `outsAt0`; the shared input array's share dealt in halves to its two
    windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point with tile index not zero the first accumulator's buffer holds what the body left at the point before:
    the buffer was not written back between (write-backs follow a cloud's last tile only). -/
theorem before0_2_B (c : Dev nD) (t : Fin cfg0.N) (h0 : ¬t.val % 4 = 0) (d) :
    (dats m 0 c).before 2 t d = (outsAt0 m c (t.val - 1) (Nat.lt_of_le_of_lt (Nat.sub_le _ _) t.isLt)).1 := by
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)).2 := by
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; by cases on the tile index the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 4 = 0
  · rw [outsAt0_A m c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    dsimp only
    simp only [before0_2_B m c t h0, before0_3_B m c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

/-- The exit valuation: the entry valuation with the two accumulator arrays at what the write-backs leave. -/
def VN (c : Dev nD) : Valuation τ sig (Elt F) :=
  Function.update (Function.update (V0 m c) main_v0_0 ((dats m 0 c).arrAt 2 cfg0.N)) main_v0_1 ((dats m 0 c).arrAt 3 cfg0.N)

/-- Each window's array at the exit valuation is what the proof data say it holds at the end: the input array as
    it was found, each accumulator array at what the write-backs left. -/
theorem VN_arr (c : Dev nD) (w : Fin cfg0.W) :
    (dats m 0 c).arrAt w cfg0.N = VN m c (Proc.devRef .tc (Pipeline.arrRef spec0 w)) := by
  have h02 : (main_arg0 : Ref sig .tc) ≠ main_v0_0 := by decide
  have h03 : (main_arg0 : Ref sig .tc) ≠ main_v0_1 := by decide
  have h23 : (main_v0_0 : Ref sig .tc) ≠ main_v0_1 := by decide
  fin_cases w
  · refine ((dats m 0 c).arrAt_in 0 rfl _).trans ?_
    unfold VN
    rw [Function.update_of_ne (StableHlo.devRef_ne_of_ne h03), Function.update_of_ne (StableHlo.devRef_ne_of_ne h02)]
    rfl
  · refine ((dats m 0 c).arrAt_in 1 rfl _).trans ?_
    unfold VN
    rw [Function.update_of_ne (StableHlo.devRef_ne_of_ne h03), Function.update_of_ne (StableHlo.devRef_ne_of_ne h02)]
    rfl
  · unfold VN
    rw [Function.update_of_ne (StableHlo.devRef_ne_of_ne h23)]
    exact (Function.update_self (Proc.devRef (τ := τ) .tc main_v0_0) ((dats m 0 c).arrAt 2 cfg0.N) (V0 m c)).symm
  · unfold VN
    exact (Function.update_self (Proc.devRef (τ := τ) .tc main_v0_1) ((dats m 0 c).arrAt 3 cfg0.N)
      (Function.update (V0 m c) (Proc.devRef (τ := τ) .tc main_v0_0) ((dats m 0 c).arrAt 2 cfg0.N))).symm

/-- Off the accumulator arrays the exit valuation is the entry valuation. -/
theorem VN_rest (c : Dev nD) (b : Ref sig .tc) (hb : b ∈ Pipeline.restRefs sig spec0) :
    VN m c (Proc.devRef .tc b) = V0 m c (Proc.devRef .tc b) := by
  have hb' : b ∉ Finset.univ.image (Pipeline.arrRef spec0) := (Finset.mem_sdiff.mp hb).2
  have h2 : b ≠ main_v0_0 := fun e => hb' (e ▸ Finset.mem_image.mpr ⟨2, Finset.mem_univ _, rfl⟩)
  have h3 : b ≠ main_v0_1 := fun e => hb' (e ▸ Finset.mem_image.mpr ⟨3, Finset.mem_univ _, rfl⟩)
  unfold VN
  rw [Function.update_of_ne (StableHlo.devRef_ne_of_ne h3), Function.update_of_ne (StableHlo.devRef_ne_of_ne h2)]

set_option backward.isDefEq.respectTransparency.types false in
/-- From any memory with zero counters every weakly fair execution of the main function terminates; every window's
    array ends at the proof data's final contents and every other unscoped buffer at the fold of the host operations
    after the region over the exit valuation. -/
theorem run_main : θ_run defs (onTc (τ := τ) (main (F := F))) (s₀ m ρ) (Pipeline.SharedAroundPost cfgs (dats m) 0 (VN m) [hostOps1]) :=
  Pipeline.θ_run_frame_shared_around cfgs (dats m) (0 : Fin 1) cellOf_inj winFacts₀0 defs₀ Variants.none m ρ main
    (hbody := fun c => (body_obligation m c).loose) (hne := block_pos0) (harr := arr_whole0) (hstage := stage_whole0)
    (howed := fun _ _ => rfl) (V₀ := V0 m) (VN := VN m) (opss := [hostOps1]) (hsub := sfx_sub) (hfresh := sfx_fresh) (hkeep := sfx_keeps)
    (hmain := hmain m Variants.none)
    (hsplit := fun c => arrays_of_arrBufs (dats m 0 c) rfl rfl _ _ (fun w => rfl))
    (hVN := VN_rest m)
    (hjoin := fun c => arrBufs_of_arrays (dats m 0 c) rfl rfl _ _ (VN_arr m c))
    (hsplitN := fun c => arrays_of_arrBufs (dats m 0 c) rfl rfl _ _ (VN_arr m c))
    (hin := fun c => .rfl) (hout := fun c => .rfl)

/-- The frame: the input array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.Kernel.Hand

end
-- ==== Proof.KI.Runs.lean ====
/-
  What the two control cases of the kernel body share.

  The main function is the kernel region followed by seventeen host operations.  The region is entered at the launch
  contents.  The grid has 32 × 4 points, point t = 4·b + i working on cloud b and row tile i.  Window 0 is the tile's
  512 rows, window 1 the cloud's 2048 rows (both of the one input array), windows 2 and 3 the two 8×128 accumulator
  blocks of cloud b.  The body resets both accumulators exactly at the points with i = 0.
-/
import proofs.«136958_j60129542698_1_alg».proof.Proof.Gen.KernelIdeal.Launch
import proofs.«136958_j60129542698_1_alg».proof.Proof.Gen.KernelIdeal.Skeleton
import proofs.«136958_j60129542698_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function around the region -/

/-- Core `c`'s buffer contents when the region is entered, as a valuation: the launch contents (no host operation
    comes before the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The references the host operations after the region write. -/
abbrev hostOps1_W : List (Ref sig .tc) :=
  [main_v1, main_v2, main_v3, main_v4, main_cst, main_v5, main_v6, main_cst_0, main_v7, main_v8, main_cst_1, main_v9, main_v10,
    main_cst_2, main_v11, main_v12, main_v13]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))

/-- The main function reduces to the region continued by the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The operations after the region touch unscoped TensorCore buffers only. -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array of the pipeline: each writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  have h := (List.forall_iff_forall_mem.mp hostOps1_writes) op hop hmem
  rw [List.mem_toFinset, List.mem_map] at h
  obtain ⟨r, hr, e⟩ := h
  have e' : r = Pipeline.arrRef spec0 w := Proc.devRef_injective (τ := τ) _ e
  subst e'
  revert hr
  fin_cases w <;> decide

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile's staging buffer holds its block at every point, for any proof data whose array is the entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The cloud's staging buffer holds its block at every point, fetched there or not (between fetches the block
    index does not move). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional, from the grid coordinates: the tile index is zero. -/
abbrev cond0_0 (i : grid0.Coords) : Prop := (Scalar.cmpi .ne (Scalar.extui (Scalar.cmpi .eq (BitVec.ofNat 32 (i 1).val) 0#32)) 0#32) = 1#1
/-- It holds at the points ≡ 0 (mod 4), decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of each accumulator window, through which its contents are stated. -/
abbrev VO0_2 : View sig .tc .vmem S1x8x128 .f32 := (Memref.whole cc0_stg2_0 : Memref sig .tc .vmem S1x8x128 .f32).view
abbrev VO0_3 : View sig .tc .vmem S1x8x128 .f32 := (Memref.whole cc0_stg3_0 : Memref sig .tc .vmem S1x8x128 .f32).view
/-- Each window's current staging memref at point `t`, spelled as the pipeline passes it, and its wholeness. -/
abbrev ms0_0 (t : Fin cfg0.N) : Memref sig .tc .vmem S1x512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KI.RunA.lean ====
/-
  The whole-body run of the kernel at a point with tile index zero: both accumulators are reset to the zero block,
  then each gains the tile's share.  The accumulators' buffers may hold anything when the body starts.
-/
import proofs.«136958_j60129542698_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each accumulator's staging memref, as pieces (last first), with the proof that
    on whole staging memrefs the body runs to a continuation holding the inputs' buffers as they were and each
    accumulator's buffer with its pieces written. -/
noncomputable def kernelRun0_A (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x512x64 .f32) (x1 : Vec F S1x2048x64 .f32) :
    Σ' (L2 : List (View.Piece (Elt F) S1x8x128 .f32)), { L3 : List (View.Piece (Elt F) S1x8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__mmd_kernel i arg2 harg2 arg3 harg3 arg4 harg4 arg5 harg5) K } := by
  refine ⟨?_, ?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand

end
-- ==== Proof.KI.RunB.lean ====
/-
  The whole-body run of the kernel at a point with tile index not zero: nothing is reset, each accumulator gains the
  tile's share over what the point before left in its buffer.
-/
import proofs.«136958_j60129542698_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each accumulator's staging memref, as pieces (last first), with the proof that
    on whole staging memrefs the body runs to a continuation holding the inputs' buffers as they were and each
    accumulator's buffer with its pieces written. -/
noncomputable def kernelRun0_B (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x512x64 .f32) (x1 : Vec F S1x2048x64 .f32) (xo2 : Vec F S1x8x128 .f32) (xo3 : Vec F S1x8x128 .f32) :
    Σ' (L2 : List (View.Piece (Elt F) S1x8x128 .f32)), { L3 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__mmd_kernel i arg2 harg2 arg3 harg3 arg4 harg4 arg5 harg5) K } := by
  refine ⟨?_, ?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand

end
-- ==== Proof.KI.Arrays.lean ====
/-
  The one input array is read through two windows (the row tile and the whole cloud): the buffer behind both is held
  whole, and its full share is dealt in halves, the left half to window 0 and the right half to window 1.  The two
  accumulator arrays are each behind one window, held at the full share.  So the three distinct buffers behind the
  four windows' arrays, whole at a valuation, are exactly the proof data's four arrays at the contents the valuation
  gives them, in both directions.
-/
import proofs.«136958_j60129542698_1_alg».proof.Proof.Gen.KernelIdeal.Launch
import Idealize.ShloMosaic.Lib.Pipeline.Kit
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- The proof data's arrays, window by window: the input array's two halves and the two accumulators whole. -/
theorem arrays_eq4 {c : Dev nD} (dat : Dat τ (Elt F) Unit ℕ (UR sig nD τ) ℕ cfg0 c)
    (hq0 : dat.q 0 = fullShare.left) (hq1 : dat.q 1 = fullShare.right)
    (W : (b : Ref sig .tc) → Buf (Elt F) ((c.tc : Thread nD τ).loc b)) :
    (dat.arrays (fun w => W (Pipeline.arrRef spec0 w)) : sProp 𝕄)
      = iprop((((c.tc : Thread nD τ).loc main_arg0) ↦{fullShare.left} W main_arg0)
          ∗ (((c.tc : Thread nD τ).loc main_arg0) ↦{fullShare.right} W main_arg0)
          ∗ (((c.tc : Thread nD τ).loc main_v0_0) ↦{fullShare} W main_v0_0)
          ∗ (((c.tc : Thread nD τ).loc main_v0_1) ↦{fullShare} W main_v0_1)) := by
  have hs0 : dat.share 0 = fullShare.left := by unfold Dat.share; rw [if_neg (by decide), hq0]
  have hs1 : dat.share 1 = fullShare.right := by unfold Dat.share; rw [if_neg (by decide), hq1]
  have hs2 : dat.share 2 = fullShare := by unfold Dat.share; rw [if_pos (by decide)]
  have hs3 : dat.share 3 = fullShare := by unfold Dat.share; rw [if_pos (by decide)]
  unfold Dat.arrays
  refine (bigSep_W0 _).trans ?_
  -- windows 0 and 1 are on one array: one rewriting turns both
  rw [(arr_whole0 0).set_eq_univ, (arr_whole0 2).set_eq_univ, (arr_whole0 3).set_eq_univ, hs0, hs1, hs2, hs3]

/-- The three distinct buffers behind the four windows' arrays, one by one. -/
theorem arrBufs_eq3 {c : Dev nD} (W : (b : Ref sig .tc) → Buf (Elt F) ((c.tc : Thread nD τ).loc b)) :
    (Pipeline.arrBufs spec0 c W : sProp 𝕄)
      = iprop((((c.tc : Thread nD τ).loc main_arg0) ↦{fullShare} W main_arg0)
          ∗ (((c.tc : Thread nD τ).loc main_v0_0) ↦{fullShare} W main_v0_0)
          ∗ (((c.tc : Thread nD τ).loc main_v0_1) ↦{fullShare} W main_v0_1)) := by
  unfold Pipeline.arrBufs
  exact bigSep_eq_bigSepL_of_eq [main_arg0, main_v0_0, main_v0_1] (by decide) (by decide) _

/-- The buffers behind the arrays, whole at `W`, make the proof data's arrays at the contents `W` gives each. -/
theorem arrays_of_arrBufs {c : Dev nD} (dat : Dat τ (Elt F) Unit ℕ (UR sig nD τ) ℕ cfg0 c)
    (hq0 : dat.q 0 = fullShare.left) (hq1 : dat.q 1 = fullShare.right)
    (A : (w : Fin cfg0.W) → Buf (Elt F) ((cfg0.win w).arr.view.loc (c.tc : Thread nD τ)))
    (W : (b : Ref sig .tc) → Buf (Elt F) ((c.tc : Thread nD τ).loc b))
    (hA : ∀ w, A w = W (Pipeline.arrRef spec0 w)) :
    (Pipeline.arrBufs spec0 c W : sProp 𝕄) ⊢ dat.arrays A := by
  obtain rfl : A = fun w => W (Pipeline.arrRef spec0 w) := funext hA
  rw [arrays_eq4 dat hq0 hq1 W, arrBufs_eq3 W]
  iintro ⟨H0, H2, H3⟩
  ihave H0 := (pointsTo_share (PosShare.mem_left_op_right fullShare)).1 $$ H0
  icases H0 with ⟨H0l, H0r⟩
  isplitl [H0l]; · iexact H0l
  isplitl [H0r]; · iexact H0r
  isplitl [H2] <;> iassumption

/-- And back: the proof data's arrays, at contents that agree on the shared array, are the buffers whole at `W`. -/
theorem arrBufs_of_arrays {c : Dev nD} (dat : Dat τ (Elt F) Unit ℕ (UR sig nD τ) ℕ cfg0 c)
    (hq0 : dat.q 0 = fullShare.left) (hq1 : dat.q 1 = fullShare.right)
    (A : (w : Fin cfg0.W) → Buf (Elt F) ((cfg0.win w).arr.view.loc (c.tc : Thread nD τ)))
    (W : (b : Ref sig .tc) → Buf (Elt F) ((c.tc : Thread nD τ).loc b))
    (hA : ∀ w, A w = W (Pipeline.arrRef spec0 w)) :
    dat.arrays A ⊢ (Pipeline.arrBufs spec0 c W : sProp 𝕄) := by
  obtain rfl : A = fun w => W (Pipeline.arrRef spec0 w) := funext hA
  rw [arrays_eq4 dat hq0 hq1 W, arrBufs_eq3 W]
  iintro ⟨H0l, H0r, H2, H3⟩
  ihave H0 := (pointsTo_share (PosShare.mem_left_op_right fullShare)).2 $$ [H0l H0r]
  · isplitl [H0l] <;> iassumption
  isplitl [H0]; · iexact H0
  isplitl [H2] <;> iassumption

end Cert.KernelIdeal.Hand

end
-- ==== Proof.KI.Frame.lean ====
/-
  The frame of the kernel program: it runs to the end, faults nowhere, and leaves its input array unchanged.

  What the two accumulator buffers hold after each grid point is defined by recursion on the point: at a point with
  tile index zero, what the reset-and-add case leaves; at any other point, what the add case leaves over what the point
  before left (the accumulators' blocks are written back only after a cloud's last tile, so between the tiles of one
  cloud the buffers are carried).  With these as the proof data, the body obligation holds at every point by cases
  on the tile index, and the launch (two input windows on one array, host operations after the region) gives the
  run.
-/
import proofs.«136958_j60129542698_1_alg».proof.Proof.KI.RunB
import proofs.«136958_j60129542698_1_alg».proof.Proof.KI.Arrays
import proofs.«136958_j60129542698_1_alg».proof.Proof.LibSharedAround

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A: the stores into the first accumulator's buffer tile its block, so they cover it. -/
theorem cover0_A_2 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x512x64 .f32) (x1 : Vec F S1x2048x64 .f32) (y : S1x8x128.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x8x128.size (by sl_kernel_rfl) y
/-- What case A leaves in the first accumulator's buffer: its pieces read back. -/
def out0_A_2 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x512x64 .f32) (x1 : Vec F S1x2048x64 .f32) : Vec F S1x8x128 .f32 :=
  VO0_2.read (Elt F) (VO0_2.writes (Elt F) VO0_2.junk (kernelRun0_A c i arg2 harg2 arg3 harg3 arg4 harg4 arg5 harg5 hc0 x0 x1).1)
/-- Case A: the stores into the second accumulator's buffer cover its block. -/
theorem cover0_A_3 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x512x64 .f32) (x1 : Vec F S1x2048x64 .f32) (y : S1x8x128.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x8x128.size (by sl_kernel_rfl) y
/-- What case A leaves in the second accumulator's buffer. -/
def out0_A_3 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x512x64 .f32) (x1 : Vec F S1x2048x64 .f32) : Vec F S1x8x128 .f32 :=
  VO0_3.read (Elt F) (VO0_3.writes (Elt F) VO0_3.junk (kernelRun0_A c i arg2 harg2 arg3 harg3 arg4 harg4 arg5 harg5 hc0 x0 x1).2.1)

/-- Case B: the stores into the first accumulator's buffer tile its block, so they cover it. -/
theorem cover0_B_2 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x512x64 .f32) (x1 : Vec F S1x2048x64 .f32) (xo2 : Vec F S1x8x128 .f32) (xo3 : Vec F S1x8x128 .f32) (y : S1x8x128.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x8x128.size (by sl_kernel_rfl) y
/-- What case B leaves in the first accumulator's buffer: its pieces read back. -/
def out0_B_2 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x512x64 .f32) (x1 : Vec F S1x2048x64 .f32) (xo2 : Vec F S1x8x128 .f32) (xo3 : Vec F S1x8x128 .f32) : Vec F S1x8x128 .f32 :=
  VO0_2.read (Elt F) (VO0_2.writes (Elt F) VO0_2.junk (kernelRun0_B c i arg2 harg2 arg3 harg3 arg4 harg4 arg5 harg5 hc0 x0 x1 xo2 xo3).1)
/-- Case B: the stores into the second accumulator's buffer cover its block. -/
theorem cover0_B_3 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x512x64 .f32) (x1 : Vec F S1x2048x64 .f32) (xo2 : Vec F S1x8x128 .f32) (xo3 : Vec F S1x8x128 .f32) (y : S1x8x128.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x8x128.size (by sl_kernel_rfl) y
/-- What case B leaves in the second accumulator's buffer. -/
def out0_B_3 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x512x64 .f32) (x1 : Vec F S1x2048x64 .f32) (xo2 : Vec F S1x8x128 .f32) (xo3 : Vec F S1x8x128 .f32) : Vec F S1x8x128 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- What the two accumulators' staging buffers hold after the body at position `n`. -/
def outsAt0 (c : Dev nD) : (n : ℕ) → n < cfg0.N → Vec F S1x8x128 .f32 × Vec F S1x8x128 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2)

/-- At a point with tile index zero: the reset-and-add case's contents. -/
theorem outsAt0_A (c : Dev nD) (t : Fin cfg0.N) (h0 : t.val % 4 = 0) :
    outsAt0 m c t.val t.isLt =
      (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At any other point: the add case's contents, over what the point before left. -/
theorem outsAt0_B (c : Dev nD) (t : Fin cfg0.N) (h0 : ¬t.val % 4 = 0) :
    outsAt0 m c t.val t.isLt =
      (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer
    at its block and the accumulators' at `outsAt0`; the shared input array's share dealt in halves to its two
    windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point with tile index not zero the first accumulator's buffer holds what the body left at the point before:
    the buffer was not written back between (write-backs follow a cloud's last tile only). -/
theorem before0_2_B (c : Dev nD) (t : Fin cfg0.N) (h0 : ¬t.val % 4 = 0) (d) :
    (dats m 0 c).before 2 t d = (outsAt0 m c (t.val - 1) (Nat.lt_of_le_of_lt (Nat.sub_le _ _) t.isLt)).1 := by
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)).2 := by
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; by cases on the tile index the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 4 = 0
  · rw [outsAt0_A m c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    dsimp only
    simp only [before0_2_B m c t h0, before0_3_B m c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

/-- The exit valuation: the entry valuation with the two accumulator arrays at what the write-backs leave. -/
def VN (c : Dev nD) : Valuation τ sig (Elt F) :=
  Function.update (Function.update (V0 m c) main_v0_0 ((dats m 0 c).arrAt 2 cfg0.N)) main_v0_1 ((dats m 0 c).arrAt 3 cfg0.N)

/-- Each window's array at the exit valuation is what the proof data say it holds at the end: the input array as
    it was found, each accumulator array at what the write-backs left. -/
theorem VN_arr (c : Dev nD) (w : Fin cfg0.W) :
    (dats m 0 c).arrAt w cfg0.N = VN m c (Proc.devRef .tc (Pipeline.arrRef spec0 w)) := by
  have h02 : (main_arg0 : Ref sig .tc) ≠ main_v0_0 := by decide
  have h03 : (main_arg0 : Ref sig .tc) ≠ main_v0_1 := by decide
  have h23 : (main_v0_0 : Ref sig .tc) ≠ main_v0_1 := by decide
  fin_cases w
  · refine ((dats m 0 c).arrAt_in 0 rfl _).trans ?_
    unfold VN
    rw [Function.update_of_ne (StableHlo.devRef_ne_of_ne h03), Function.update_of_ne (StableHlo.devRef_ne_of_ne h02)]
    rfl
  · refine ((dats m 0 c).arrAt_in 1 rfl _).trans ?_
    unfold VN
    rw [Function.update_of_ne (StableHlo.devRef_ne_of_ne h03), Function.update_of_ne (StableHlo.devRef_ne_of_ne h02)]
    rfl
  · unfold VN
    rw [Function.update_of_ne (StableHlo.devRef_ne_of_ne h23)]
    exact (Function.update_self (Proc.devRef (τ := τ) .tc main_v0_0) ((dats m 0 c).arrAt 2 cfg0.N) (V0 m c)).symm
  · unfold VN
    exact (Function.update_self (Proc.devRef (τ := τ) .tc main_v0_1) ((dats m 0 c).arrAt 3 cfg0.N)
      (Function.update (V0 m c) (Proc.devRef (τ := τ) .tc main_v0_0) ((dats m 0 c).arrAt 2 cfg0.N))).symm

/-- Off the accumulator arrays the exit valuation is the entry valuation. -/
theorem VN_rest (c : Dev nD) (b : Ref sig .tc) (hb : b ∈ Pipeline.restRefs sig spec0) :
    VN m c (Proc.devRef .tc b) = V0 m c (Proc.devRef .tc b) := by
  have hb' : b ∉ Finset.univ.image (Pipeline.arrRef spec0) := (Finset.mem_sdiff.mp hb).2
  have h2 : b ≠ main_v0_0 := fun e => hb' (e ▸ Finset.mem_image.mpr ⟨2, Finset.mem_univ _, rfl⟩)
  have h3 : b ≠ main_v0_1 := fun e => hb' (e ▸ Finset.mem_image.mpr ⟨3, Finset.mem_univ _, rfl⟩)
  unfold VN
  rw [Function.update_of_ne (StableHlo.devRef_ne_of_ne h3), Function.update_of_ne (StableHlo.devRef_ne_of_ne h2)]

set_option backward.isDefEq.respectTransparency.types false in
/-- From any memory with zero counters every weakly fair execution of the main function terminates; every window's
    array ends at the proof data's final contents and every other unscoped buffer at the fold of the host operations
    after the region over the exit valuation. -/
theorem run_main : θ_run defs (onTc (τ := τ) (main (F := F))) (s₀ m ρ) (Pipeline.SharedAroundPost cfgs (dats m) 0 (VN m) [hostOps1]) :=
  Pipeline.θ_run_frame_shared_around cfgs (dats m) (0 : Fin 1) cellOf_inj winFacts₀0 defs₀ Variants.none m ρ main
    (hbody := fun c => (body_obligation m c).loose) (hne := block_pos0) (harr := arr_whole0) (hstage := stage_whole0)
    (howed := fun _ _ => rfl) (V₀ := V0 m) (VN := VN m) (opss := [hostOps1]) (hsub := sfx_sub) (hfresh := sfx_fresh) (hkeep := sfx_keeps)
    (hmain := hmain m Variants.none)
    (hsplit := fun c => arrays_of_arrBufs (dats m 0 c) rfl rfl _ _ (fun w => rfl))
    (hVN := VN_rest m)
    (hjoin := fun c => arrBufs_of_arrays (dats m 0 c) rfl rfl _ _ (VN_arr m c))
    (hsplitN := fun c => arrays_of_arrBufs (dats m 0 c) rfl rfl _ _ (VN_arr m c))
    (hin := fun c => .rfl) (hout := fun c => .rfl)

/-- The frame: the input array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.KernelIdeal.Hand

end
-- ==== Proof.KI.Pieces.lean ====
/-
  What each control case of the body leaves in the two accumulator buffers, as values: with the tile index zero the
  first accumulator ends at the zero block plus the tile's pair-sum scalar and the second at the zero block plus the
  tile's cross-sum scalar; otherwise each ends at what it held plus the same scalars.  (The scalars are the body's
  named pure terms of the two input blocks.)
-/
import proofs.«136958_j60129542698_1_alg».proof.Proof.KI.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The literal offsets of the accumulators' stores and loads are zero. -/
theorem offsets_zero : (![0, 0, 0] : Fin 3 → Nat) = fun _ => 0 := funext fun a => by fin_cases a <;> rfl

theorem out0_A_2_eq (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x512x64 .f32) (x1 : Vec F S1x2048x64 .f32) :
    out0_A_2 c i arg2 harg2 arg3 harg3 arg4 harg4 arg5 harg5 hc0 x0 x1 = k0_pay1 (k0_pay7 x0 x1) (k0_pay3 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x8x128) offsets_zero, View.readCov_unit_zero (S := S1x8x128) _ offsets_zero]
  simp only [View.readAt_eq_ld, harg2.read_unread, harg3.read_unread, View.ld_unit_zero (S := S1x512x64) offsets_zero,
    View.ld_unit_zero (S := S1x2048x64) offsets_zero]

theorem out0_A_3_eq (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S1x512x64 .f32) (x1 : Vec F S1x2048x64 .f32) :
    out0_A_3 c i arg2 harg2 arg3 harg3 arg4 harg4 arg5 harg5 hc0 x0 x1 = k0_pay2 (k0_pay8 x0) (k0_pay4 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x8x128) offsets_zero, View.readCov_unit_zero (S := S1x8x128) _ offsets_zero]
  simp only [View.readAt_eq_ld, harg2.read_unread, harg3.read_unread, View.ld_unit_zero (S := S1x512x64) offsets_zero,
    View.ld_unit_zero (S := S1x2048x64) offsets_zero]

theorem out0_B_2_eq (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x512x64 .f32) (x1 : Vec F S1x2048x64 .f32) (xo2 : Vec F S1x8x128 .f32) (xo3 : Vec F S1x8x128 .f32) :
    out0_B_2 c i arg2 harg2 arg3 harg3 arg4 harg4 arg5 harg5 hc0 x0 x1 xo2 xo3 = k0_pay1 (k0_pay7 x0 x1) xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero offsets_zero]
  simp only [View.readAt_eq_ld, harg2.read_unread, harg3.read_unread, harg4.read_unread, harg5.read_unread,
    View.ld_unit_zero (S := S1x512x64) offsets_zero, View.ld_unit_zero (S := S1x2048x64) offsets_zero, View.ld_unit_zero (S := S1x8x128) offsets_zero]

theorem out0_B_3_eq (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S1x512x64 .f32) (x1 : Vec F S1x2048x64 .f32) (xo2 : Vec F S1x8x128 .f32) (xo3 : Vec F S1x8x128 .f32) :
    out0_B_3 c i arg2 harg2 arg3 harg3 arg4 harg4 arg5 harg5 hc0 x0 x1 xo2 xo3 = k0_pay2 (k0_pay8 x0) xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero offsets_zero]
  simp only [View.readAt_eq_ld, harg2.read_unread, harg3.read_unread, harg4.read_unread, harg5.read_unread,
    View.ld_unit_zero (S := S1x512x64) offsets_zero, View.ld_unit_zero (S := S1x2048x64) offsets_zero, View.ld_unit_zero (S := S1x8x128) offsets_zero]

end Cert.KernelIdeal.Hand

end
-- ==== Proof.Spec.lean ====
/-
  The mathematics of the pairwise Gaussian-kernel discrepancy, on the extended reals.

  For a batch of point clouds `x[b, p, d]` (32 clouds of 2048 points in dimension 64) and each cloud `b`:
    * `sq b p`      the squared norm of point `p`:  Σ_d x[b,p,d]²;
    * `gram b p j`  the inner product of points `p` and `j`:  Σ_d x[b,p,d]·x[b,j,d];
    * `ker b p j`   the Gaussian kernel of the pair, exp(−(sq p + sq j − 2·gram p j) / 2);
    * `cross b p`   the kernel's mean against a standard normal point, exp(−sq p / 4);
    * `yy b`, `xy b` their sums over all pairs, and over all points;
    * `G`           the estimate  c₀ + yy/c_K − (c₁·xy)·c₂  with the four scalars kept as the float words they are
                    printed as (the same words on both sides of the claim: they are never evaluated).
  The sums over the 2048 points are also written tile by tile (4 tiles of 512 rows): `pyy b i`, `pxy b i` are tile
  `i`'s share, and `yy_eq_tiles`, `xy_eq_tiles` say the shares add up.  Addition on the extended reals is
  commutative and associative, so no finiteness is needed for that.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shape of the input: 32 clouds, 2048 points, dimension 64. -/
abbrev SX : Shape := ⟨3, ![32, 2048, 64]⟩
/-- The shape of the result: one number per cloud. -/
abbrev SB : Shape := ⟨1, ![32]⟩

/-- The scalars, as the words both programs print. -/
abbrev two : EReal := Ideal.ofBits .f32 0x40000000#32
abbrev four : EReal := Ideal.ofBits .f32 0x40800000#32
abbrev cPairs : EReal := Ideal.ofBits .f32 0x4A7FE000#32
abbrev cInvN : EReal := Ideal.ofBits .f32 0x3A800000#32
abbrev cHalfPow : EReal := Ideal.ofBits .f32 0x2F800000#32
abbrev cPrior : EReal := Ideal.ofBits .f32 0x261B8BD8#32

variable (x : SX.Idx → EReal)

/-- The squared norm of point `p` of cloud `b`. -/
def sq (b : Fin 32) (p : Fin 2048) : EReal := ∑ d : Fin 64, x (ix3 b p d) * x (ix3 b p d)

/-- The inner product of points `p` and `j` of cloud `b`. -/
def gram (b : Fin 32) (p j : Fin 2048) : EReal := ∑ d : Fin 64, x (ix3 b p d) * x (ix3 b j d)

/-- The Gaussian kernel of the pair `(p, j)`: the exponential of minus half the squared distance, the squared
    distance written as `sq p + sq j − 2·gram p j`. -/
def ker (b : Fin 32) (p j : Fin 2048) : EReal :=
  Ideal.exp (Ideal.div (-((sq x b p + sq x b j) - two * gram x b p j)) two)

/-- The kernel's mean against a standard normal point, up to the constant factor applied at the end. -/
def cross (b : Fin 32) (p : Fin 2048) : EReal := Ideal.exp (Ideal.div (-(sq x b p)) four)

/-- The sum of the kernel over all ordered pairs of points of cloud `b`. -/
def yy (b : Fin 32) : EReal := ∑ p : Fin 2048, ∑ j : Fin 2048, ker x b p j

/-- The sum of the cross term over the points of cloud `b`. -/
def xy (b : Fin 32) : EReal := ∑ p : Fin 2048, cross x b p

/-- The estimate, one number per cloud. -/
def G : SB.Idx → EReal := fun i =>
  (cPrior + Ideal.div (yy x (i 0)) cPairs) - (cInvN * xy x (i 0)) * cHalfPow

/-- Row `r` of tile `i` (4 tiles of 512 rows) as a point index. -/
def row (i : Fin 4) (r : Fin 512) : Fin 2048 := ⟨512 * i.val + r.val, by have := i.isLt; have := r.isLt; omega⟩

/-- Tile `i`'s share of `yy`: the kernel summed over the tile's 512 rows and all 2048 columns. -/
def pyy (b : Fin 32) (i : Fin 4) : EReal := ∑ r : Fin 512, ∑ j : Fin 2048, ker x b (row i r) j

/-- Tile `i`'s share of `xy`. -/
def pxy (b : Fin 32) (i : Fin 4) : EReal := ∑ r : Fin 512, cross x b (row i r)

/-- A sum over the 2048 points is the sum over the 4 tiles of the sums over each tile's 512 rows. -/
theorem sum_rows (f : Fin 2048 → EReal) : ∑ p : Fin 2048, f p = ∑ i : Fin 4, ∑ r : Fin 512, f (row i r) := by
  -- the pair (tile, row) ↦ row + 512·tile is a bijection onto the 2048 points
  have h := Equiv.sum_comp (finProdFinEquiv : Fin 4 × Fin 512 ≃ Fin 2048) f
  rw [← h, Fintype.sum_prod_type]
  refine Finset.sum_congr rfl fun i _ => Finset.sum_congr rfl fun r _ => ?_
  congr 1
  apply Fin.ext
  simp only [row, finProdFinEquiv_apply_val]
  omega

theorem yy_eq_tiles (b : Fin 32) : yy x b = ∑ i : Fin 4, pyy x b i := by
  unfold yy pyy; exact sum_rows _

theorem xy_eq_tiles (b : Fin 32) : xy x b = ∑ i : Fin 4, pxy x b i := by
  unfold xy pxy; exact sum_rows _

end Cert.Spec

end
-- ==== Proof.KI.PayloadOps.lean ====
/-
  The non-pointwise operations of the kernel body, each read at an index given by coordinates.

  Layout: a vector viewed as a column, a column repeated along the lanes, the one entry of a 1×1 matrix.
  Sums: a sum along the second axis of a matrix, read at the extended reals, is the sum over that axis's coordinates.
  The product: a matrix times a transposed matrix accumulated into zero is the sum over the contracted coordinate.
-/
import proofs.«136958_j60129542698_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx

section Layout
variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along the second axis to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entry of a 1×1 matrix taken at position (0, 0). -/
theorem extractAt_00 (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) :=
  congrArg v (funext fun a => Fin.ext (match a with | ⟨0, _⟩ => rfl | ⟨1, _⟩ => rfl))

end Layout

/-- A sum along the second axis of an `[a, b]` matrix, at the extended reals, reads at `p` the sum over the row. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (match ax with | ⟨0, _⟩ => rfl | ⟨1, _⟩ => rfl)))

end Cert.KernelIdeal.Hand

end
-- ==== Proof.KI.PayloadGram.lean ====
/-
  The product of the tile's rows with the cloud's rows: a matrix times a transposed matrix accumulated into zero
  reads, at (p, j), the sum over the contracted coordinate of the products.
-/
import proofs.«136958_j60129542698_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- On the left operand's row axis the operand index reads the result's row. -/
theorem lhs_gram_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
/-- On the left operand's contracted axis it reads the contraction coordinate. -/
theorem lhs_gram_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
/-- On the right operand's contracted axis it reads the contraction coordinate. -/
theorem rhs_gram_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
/-- On the right operand's column axis the operand index reads the result's column. -/
theorem rhs_gram_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The product accumulated into zero, at (p, j): the sum over the 64 contracted coordinates. -/
theorem gram_apply (A : FVec Ideal S512x64 .bf16) (B : FVec Ideal S64x2048 .bf16) (p : Fin 512) (j : Fin 2048) :
    matmul dot_S512x64_S64x2048_S512x2048_1_0_0_1_n_n none A B (constant (F := Ideal) S512x2048 .f32 0x00000000#32) (ix2 p j)
      = ∑ k : Fin 64, A (ix2 p k) * B (ix2 k j) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p j) ((contrEquiv1 dot_S512x64_S64x2048_S512x2048_1_0_0_1_n_n 64 rfl rfl).symm k) = ix2 p k := funext fun a => Fin.ext (by
    match a with
    | ⟨0, _⟩ => exact lhs_gram_0 _ _
    | ⟨1, _⟩ => exact (lhs_gram_1 _ _).trans hk)
  have er : dot_S512x64_S64x2048_S512x2048_1_0_0_1_n_n.rhsIdx (ix2 p j) ((contrEquiv1 dot_S512x64_S64x2048_S512x2048_1_0_0_1_n_n 64 rfl rfl).symm k) = ix2 k j := funext fun a => Fin.ext (by
    match a with
    | ⟨0, _⟩ => exact (rhs_gram_0 _ _).trans hk
    | ⟨1, _⟩ => exact rhs_gram_1 _ _)
  rw [el, er]

end Cert.KernelIdeal.Hand

end
-- ==== Proof.KI.Payload.lean ====
/-
  The kernel body's arithmetic at the extended reals, tile by tile.

  At grid point (b, i) the body is handed the tile's 512 rows `x0` and the cloud's 2048 rows `x1`.  Read at the
  extended reals its two scalars are the tile's shares of the two sums of `Cert.Spec`: the kernel summed over the
  tile's rows and all columns (`pyy`), and the cross term summed over the tile's rows (`pxy`); each is added, at every
  position of an 8×128 accumulator block, to what the block held.  The two reset values are the zero block.
-/
import proofs.«136958_j60129542698_1_alg».proof.Proof.Gen.KernelIdeal.Skeleton
import proofs.«136958_j60129542698_1_alg».proof.Proof.Spec
import proofs.«136958_j60129542698_1_alg».proof.Proof.KI.PayloadOps
import proofs.«136958_j60129542698_1_alg».proof.Proof.KI.PayloadGram
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx

variable (x : Cert.Spec.SX.Idx → EReal) (b : Fin 32) (i : Fin 4)

/-- The reset value of the first accumulator is the zero block. -/
theorem pay3_zero : k0_pay3 (F := Ideal) = fun _ => (0 : EReal) := by
  funext y
  unfold k0_pay3
  exact Ideal.ofBits_zero_f32

/-- The reset value of the second accumulator is the zero block. -/
theorem pay4_zero : k0_pay4 (F := Ideal) = fun _ => (0 : EReal) := by
  funext y
  unfold k0_pay4
  exact Ideal.ofBits_zero_f32

/-- The tile's rows as a matrix. -/
theorem pay5_apply (x0 : Vec Ideal S1x512x64 .f32) (r : Fin 512) (d : Fin 64) :
    k0_pay5 (F := Ideal) x0 (ix2 r d) = x0 (ix3 (0 : Fin 1) r d) := by
  unfold k0_pay5
  exact shapeCast_1ab_ab_apply _ _ r d

/-- The squared norm of each of the tile's rows. -/
theorem pay6_apply (x0 : Vec Ideal S1x512x64 .f32) (r : Fin 512) :
    k0_pay6 (F := Ideal) x0 (ix1 r) = ∑ d : Fin 64, x0 (ix3 (0 : Fin 1) r d) * x0 (ix3 (0 : Fin 1) r d) := by
  unfold k0_pay6
  refine (rowSum_apply _ _ _ _ r).trans ?_
  refine Finset.sum_congr rfl fun d _ => ?_
  show k0_pay5 x0 (ix2 r d) * k0_pay5 x0 (ix2 r d) = _
  rw [pay5_apply]

/-- Under the tile's reading of the cloud it is the specification's squared norm of that row. -/
theorem pay6_sq (x0 : Vec Ideal S1x512x64 .f32)
    (h0 : ∀ (r : Fin 512) (d : Fin 64), x0 (ix3 0 r d) = x (ix3 b (Cert.Spec.row i r) d)) (r : Fin 512) :
    k0_pay6 (F := Ideal) x0 (ix1 r) = Cert.Spec.sq x b (Cert.Spec.row i r) := by
  rw [pay6_apply]
  unfold Cert.Spec.sq
  exact Finset.sum_congr rfl fun d _ => by rw [h0 r d]

/-- The cross term of each of the tile's rows. -/
theorem pay8_apply (x0 : Vec Ideal S1x512x64 .f32)
    (h0 : ∀ (r : Fin 512) (d : Fin 64), x0 (ix3 0 r d) = x (ix3 b (Cert.Spec.row i r) d)) (u : Fin 1) (r : Fin 512) :
    k0_pay8 (F := Ideal) x0 (ix2 u r) = Cert.Spec.cross x b (Cert.Spec.row i r) := by
  unfold k0_pay8
  refine (shapeCast_a_1a_apply _ _ u r).trans ?_
  show Ideal.exp (Ideal.div (Ideal.ofBits .f32 0x00000000#32 - k0_pay6 x0 (ix1 r)) (Ideal.ofBits .f32 0x40800000#32)) = _
  rw [pay6_sq x b i x0 h0 r, Ideal.ofBits_zero_f32, zero_sub]
  rfl

/-- One entry of the kernel matrix from its three ingredients. -/
theorem ker_congr {A B C sa sb g : EReal} (hA : A = sa) (hB : B = sb) (hC : C = g) :
    Ideal.exp (Ideal.div (Ideal.ofBits .f32 0x00000000#32 - ((A + B) - Ideal.ofBits .f32 0x40000000#32 * C))
        (Ideal.ofBits .f32 0x40000000#32))
      = Ideal.exp (Ideal.div (-((sa + sb) - Cert.Spec.two * g)) Cert.Spec.two) := by
  subst hA hB hC
  rw [Ideal.ofBits_zero_f32, zero_sub]

/-- The body's first scalar is the tile's share of the pair sum. -/
theorem pay7_tile (x0 : Vec Ideal S1x512x64 .f32) (x1 : Vec Ideal S1x2048x64 .f32)
    (h0 : ∀ (r : Fin 512) (d : Fin 64), x0 (ix3 0 r d) = x (ix3 b (Cert.Spec.row i r) d))
    (h1 : ∀ (j : Fin 2048) (d : Fin 64), x1 (ix3 0 j d) = x (ix3 b j d)) :
    k0_pay7 (F := Ideal) x0 x1 = Cert.Spec.pyy x b i := by
  unfold k0_pay7
  refine (extractAt_00 _ _).trans ?_
  refine (shapeCast_a_1a_apply _ _ (0 : Fin 1) (0 : Fin 1)).trans ?_
  refine (rowSum_apply _ _ _ _ (0 : Fin 1)).trans ?_
  unfold Cert.Spec.pyy
  refine Finset.sum_congr rfl fun r _ => ?_
  refine (shapeCast_a_1a_apply _ _ (0 : Fin 1) r).trans ?_
  refine (rowSum_apply _ _ _ _ r).trans ?_
  refine Finset.sum_congr rfl fun j _ => ?_
  unfold Cert.Spec.ker
  show Ideal.exp (Ideal.div (Ideal.ofBits .f32 0x00000000#32 - ((_ + _) - Ideal.ofBits .f32 0x40000000#32 * _))
        (Ideal.ofBits .f32 0x40000000#32)) = _
  refine ker_congr ?_ ?_ ?_
  · -- the tile row's squared norm, repeated along the lanes
    exact (broadcastTo_a1_ab_apply _ _ r j).trans
      ((shapeCast_a_a1_apply _ _ r (0 : Fin 1)).trans (pay6_sq x b i x0 h0 r))
  · -- the cloud row's squared norm, repeated along the sublanes
    refine (broadcastTo_1b_ab_apply _ _ r j).trans
      ((shapeCast_a_1a_apply _ _ (0 : Fin 1) j).trans ((rowSum_apply _ _ _ _ j).trans ?_))
    unfold Cert.Spec.sq
    refine Finset.sum_congr rfl fun d _ => ?_
    show shapeCast S2048x64 x1 shapeCasts_S1x2048x64_S2048x64 (ix2 j d)
        * shapeCast S2048x64 x1 shapeCasts_S1x2048x64_S2048x64 (ix2 j d) = _
    rw [shapeCast_1ab_ab_apply, h1 j d]
  · -- the inner product of the tile row with the cloud row
    refine (gram_apply _ _ r j).trans ?_
    unfold Cert.Spec.gram
    refine Finset.sum_congr rfl fun k _ => ?_
    show (k0_pay5 (F := Ideal) x0 (ix2 r k) : EReal)
        * (transpose S64x2048 [1, 0]
            (truncf (F := Ideal) .bf16 (shapeCast S2048x64 x1 shapeCasts_S1x2048x64_S2048x64) bitsLt_bf16_f32)
            transposes_S2048x64_p1_0_S64x2048 (ix2 k j) : EReal) = _
    rw [pay5_apply, h0 r k, transpose_ix2_apply]
    show _ * (shapeCast S2048x64 x1 shapeCasts_S1x2048x64_S2048x64 (ix2 j k) : EReal) = _
    rw [shapeCast_1ab_ab_apply, h1 j k]

/-- The first accumulator's update: every position gains the tile's share of the pair sum. -/
theorem pay1_tile (x0 : Vec Ideal S1x512x64 .f32) (x1 : Vec Ideal S1x2048x64 .f32) (acc : Vec Ideal S1x8x128 .f32)
    (h0 : ∀ (r : Fin 512) (d : Fin 64), x0 (ix3 0 r d) = x (ix3 b (Cert.Spec.row i r) d))
    (h1 : ∀ (j : Fin 2048) (d : Fin 64), x1 (ix3 0 j d) = x (ix3 b j d)) :
    k0_pay1 (F := Ideal) (k0_pay7 x0 x1) acc = fun y => acc y + Cert.Spec.pyy x b i := by
  funext y
  rw [pay7_tile x b i x0 x1 h0 h1]
  unfold k0_pay1
  show shapeCast S1x8x128 acc shapeCasts_S1x8x128_S1x8x128 y + _ = _
  rw [shapeCast_self]
  rfl

/-- The second accumulator's update: every position gains the tile's share of the cross sum. -/
theorem pay2_tile (x0 : Vec Ideal S1x512x64 .f32) (acc : Vec Ideal S1x8x128 .f32)
    (h0 : ∀ (r : Fin 512) (d : Fin 64), x0 (ix3 0 r d) = x (ix3 b (Cert.Spec.row i r) d)) :
    k0_pay2 (F := Ideal) (k0_pay8 x0) acc = fun y => acc y + Cert.Spec.pxy x b i := by
  funext y
  unfold k0_pay2
  show shapeCast S1x8x128 acc shapeCasts_S1x8x128_S1x8x128 y + _ = _
  rw [shapeCast_self]
  refine congrArg (acc y + ·) ?_
  refine (extractAt_00 _ _).trans ?_
  refine (shapeCast_a_1a_apply _ _ (0 : Fin 1) (0 : Fin 1)).trans ?_
  refine (rowSum_apply _ _ _ _ (0 : Fin 1)).trans ?_
  unfold Cert.Spec.pxy
  exact Finset.sum_congr rfl fun r _ => pay8_apply x b i x0 h0 0 r

end Cert.KernelIdeal.Hand

end
-- ==== Proof.KI.Acc.lean ====
/-
  The accumulation, point by point, at the extended reals.

  Grid point t works on cloud b = t / 4 and row tile i = t % 4.  After point t the first accumulator block holds, at
  every position, the sum of the pair-sum shares of tiles 0 … i of cloud b, and the second the sum of the cross-sum
  shares of the same tiles: by induction on t, the reset case starting a cloud's sums at its first tile's share and
  the add case adding the next tile's.
-/
import proofs.«136958_j60129542698_1_alg».proof.Proof.KI.Pieces
import proofs.«136958_j60129542698_1_alg».proof.Proof.KI.Payload

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The input array on core `c`, as a function on its indices. -/
abbrev xin (c : Dev nD) : Cert.Spec.SX.Idx → EReal := V m c main_arg0

/-- The cloud a grid point works on. -/
def cloudOf (t : Fin cfg0.N) : Fin 32 := ⟨t.val / 4, by have := t.isLt; have h : cfg0.N = 128 := N_0; omega⟩
/-- The row tile a grid point works on. -/
def tileOf (t : Fin cfg0.N) : Fin 4 := ⟨t.val % 4, Nat.mod_lt _ (by decide)⟩

/-- Tile `k`'s share of cloud `b`'s pair sum, zero beyond the last tile. -/
def pyyN (x : Cert.Spec.SX.Idx → EReal) (b : Fin 32) (k : ℕ) : EReal := if h : k < 4 then Cert.Spec.pyy x b ⟨k, h⟩ else 0
/-- Tile `k`'s share of cloud `b`'s cross sum, zero beyond the last tile. -/
def pxyN (x : Cert.Spec.SX.Idx → EReal) (b : Fin 32) (k : ℕ) : EReal := if h : k < 4 then Cert.Spec.pxy x b ⟨k, h⟩ else 0

/-- The row tile's block index at point `t` is (t / 4, t % 4, 0), decided over the grid. -/
theorem win0_0_index : ∀ t : Fin cfg0.N, win0_0.index t (0 : Fin 3) = t.val / 4 ∧ win0_0.index t 1 = t.val % 4 ∧ win0_0.index t 2 = 0 :=
  (by decide +kernel : ∀ t : Fin grid0.N, win0_0.index t (0 : Fin 3) = t.val / 4 ∧ win0_0.index t 1 = t.val % 4 ∧ win0_0.index t 2 = 0)
/-- The cloud's block index at point `t` is (t / 4, 0, 0), decided over the grid. -/
theorem win0_1_index : ∀ t : Fin cfg0.N, win0_1.index t (0 : Fin 3) = t.val / 4 ∧ win0_1.index t 1 = 0 ∧ win0_1.index t 2 = 0 :=
  (by decide +kernel : ∀ t : Fin grid0.N, win0_1.index t (0 : Fin 3) = t.val / 4 ∧ win0_1.index t 1 = 0 ∧ win0_1.index t 2 = 0)

/-- The row tile's block at point `t` is rows 512·i … 512·i + 511 of cloud b of the input array. -/
theorem iblk0_at (c : Dev nD) (t : Fin cfg0.N) (r : Fin 512) (d : Fin 64) :
    (iblk m c 0 t : Vec Ideal S1x512x64 .f32) (ix3 0 r d) = xin m c (ix3 (cloudOf t) (Cert.Spec.row (tileOf t) r) d) := by
  have hi := win0_0_index t
  unfold iblk
  rw [View.read_apply]
  show V m c main_arg0 _ = V m c main_arg0 _
  congr 1
  funext a
  apply Fin.ext
  match a with
  | ⟨0, _⟩ => show win0_0.index t 0 * 1 + 1 * 0 = t.val / 4; rw [hi.1]; omega
  | ⟨1, _⟩ => show win0_0.index t 1 * 512 + 1 * r.val = 512 * (t.val % 4) + r.val; rw [hi.2.1]; omega
  | ⟨2, _⟩ => show win0_0.index t 2 * 64 + 1 * d.val = d.val; rw [hi.2.2]; omega

/-- The cloud's block at point `t` is cloud b of the input array. -/
theorem iblk1_at (c : Dev nD) (t : Fin cfg0.N) (j : Fin 2048) (d : Fin 64) :
    (iblk m c 1 t : Vec Ideal S1x2048x64 .f32) (ix3 0 j d) = xin m c (ix3 (cloudOf t) j d) := by
  have hi := win0_1_index t
  unfold iblk
  rw [View.read_apply]
  show V m c main_arg0 _ = V m c main_arg0 _
  congr 1
  funext a
  apply Fin.ext
  match a with
  | ⟨0, _⟩ => show win0_1.index t 0 * 1 + 1 * 0 = t.val / 4; rw [hi.1]; omega
  | ⟨1, _⟩ => show win0_1.index t 1 * 2048 + 1 * j.val = j.val; rw [hi.2.1]; omega
  | ⟨2, _⟩ => show win0_1.index t 2 * 64 + 1 * d.val = d.val; rw [hi.2.2]; omega

/-- Tile `t % 4`'s share, as the share of the point's own tile. -/
theorem pyyN_tile (x : Cert.Spec.SX.Idx → EReal) (b : Fin 32) (t : Fin cfg0.N) : pyyN x b (t.val % 4) = Cert.Spec.pyy x b (tileOf t) := by
  unfold pyyN tileOf
  rw [dif_pos (Nat.mod_lt _ (by decide))]
theorem pxyN_tile (x : Cert.Spec.SX.Idx → EReal) (b : Fin 32) (t : Fin cfg0.N) : pxyN x b (t.val % 4) = Cert.Spec.pxy x b (tileOf t) := by
  unfold pxyN tileOf
  rw [dif_pos (Nat.mod_lt _ (by decide))]

/-- At a cloud's first tile both accumulators are reset and receive the tile's shares. -/
theorem step_first (c : Dev nD) (t : Fin cfg0.N) (h0 : t.val % 4 = 0) :
    outsAt0 m c t.val t.isLt =
      ((fun _ => 0 + Cert.Spec.pyy (xin m c) (cloudOf t) (tileOf t)),
       (fun _ => 0 + Cert.Spec.pxy (xin m c) (cloudOf t) (tileOf t))) := by
  rw [outsAt0_A m c t h0]
  refine Prod.ext ?_ ?_
  · dsimp only
    refine (out0_A_2_eq (F := Ideal) c (grid0.coords t) (ms0_0 t) (hs0_0 t) (ms0_1 t) (hs0_1 t) (ms0_2 t) (hs0_2 t) (ms0_3 t) (hs0_3 t)
      ((hcond0_0 t).mpr h0) (iblk m c 0 t) (iblk m c 1 t)).trans ?_
    refine (pay1_tile (xin m c) (cloudOf t) (tileOf t) (iblk m c 0 t) (iblk m c 1 t) (k0_pay3 (F := Ideal))
      (iblk0_at m c t) (iblk1_at m c t)).trans ?_
    funext y
    exact congrArg (· + Cert.Spec.pyy (xin m c) (cloudOf t) (tileOf t)) (congrFun pay3_zero y)
  · dsimp only
    refine (out0_A_3_eq (F := Ideal) c (grid0.coords t) (ms0_0 t) (hs0_0 t) (ms0_1 t) (hs0_1 t) (ms0_2 t) (hs0_2 t) (ms0_3 t) (hs0_3 t)
      ((hcond0_0 t).mpr h0) (iblk m c 0 t) (iblk m c 1 t)).trans ?_
    refine (pay2_tile (xin m c) (cloudOf t) (tileOf t) (iblk m c 0 t) (k0_pay4 (F := Ideal)) (iblk0_at m c t)).trans ?_
    funext y
    exact congrArg (· + Cert.Spec.pxy (xin m c) (cloudOf t) (tileOf t)) (congrFun pay4_zero y)

/-- At a later tile both accumulators receive the tile's shares over what the point before left. -/
theorem step_next (c : Dev nD) (t : Fin cfg0.N) (h0 : ¬t.val % 4 = 0) (a2 a3 : EReal)
    (hprev : outsAt0 m c (t.val - 1) (Nat.lt_of_le_of_lt (Nat.sub_le _ _) t.isLt) = ((fun _ => a2), (fun _ => a3))) :
    outsAt0 m c t.val t.isLt =
      ((fun _ => a2 + Cert.Spec.pyy (xin m c) (cloudOf t) (tileOf t)),
       (fun _ => a3 + Cert.Spec.pxy (xin m c) (cloudOf t) (tileOf t))) := by
  rw [outsAt0_B m c t h0, hprev]
  refine Prod.ext ?_ ?_
  · dsimp only
    refine (out0_B_2_eq (F := Ideal) c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t) (fun _ => a2) (fun _ => a3)).trans ?_
    exact pay1_tile (xin m c) (cloudOf t) (tileOf t) (iblk m c 0 t) (iblk m c 1 t) (fun _ => a2) (iblk0_at m c t) (iblk1_at m c t)
  · dsimp only
    refine (out0_B_3_eq (F := Ideal) c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t) (fun _ => a2) (fun _ => a3)).trans ?_
    exact pay2_tile (xin m c) (cloudOf t) (tileOf t) (iblk m c 0 t) (fun _ => a3) (iblk0_at m c t)

/-- The invariant at position `n`. -/
def AccAt (c : Dev nD) (n : ℕ) (hn : n < cfg0.N) : Prop :=
  outsAt0 m c n hn =
    ((fun _ => ∑ k ∈ Finset.range (n % 4 + 1), pyyN (xin m c) (cloudOf ⟨n, hn⟩) k),
     (fun _ => ∑ k ∈ Finset.range (n % 4 + 1), pxyN (xin m c) (cloudOf ⟨n, hn⟩) k))

/-- The invariant passes from the point before to a point. -/
theorem acc_step (c : Dev nD) (t : Fin cfg0.N)
    (ih : ¬t.val % 4 = 0 → AccAt m c (t.val - 1) (Nat.lt_of_le_of_lt (Nat.sub_le _ _) t.isLt)) : AccAt m c t.val t.isLt := by
  unfold AccAt
  rw [Finset.sum_range_succ, Finset.sum_range_succ, pyyN_tile, pxyN_tile]
  by_cases h0 : t.val % 4 = 0
  · rw [h0, Finset.range_zero, Finset.sum_empty, Finset.sum_empty]
    exact step_first m c t h0
  · have hb : cloudOf ⟨t.val - 1, Nat.lt_of_le_of_lt (Nat.sub_le _ _) t.isLt⟩ = cloudOf t :=
      Fin.ext (show (t.val - 1) / 4 = t.val / 4 by omega)
    have hk : (t.val - 1) % 4 + 1 = t.val % 4 := by omega
    have hp := ih h0
    unfold AccAt at hp
    rw [hb, hk] at hp
    exact step_next m c t h0 _ _ hp

/-- After point t both accumulators hold, at every position, the sums of the shares of tiles 0 … t % 4 of cloud t / 4. -/
theorem acc_inv (c : Dev nD) (t : Fin cfg0.N) :
    outsAt0 m c t.val t.isLt =
      ((fun _ => ∑ k ∈ Finset.range (t.val % 4 + 1), pyyN (xin m c) (cloudOf t) k),
       (fun _ => ∑ k ∈ Finset.range (t.val % 4 + 1), pxyN (xin m c) (cloudOf t) k)) := by
  obtain ⟨n, hn⟩ := t
  induction n with
  | zero => exact acc_step m c ⟨0, hn⟩ (fun h => absurd (Nat.zero_mod 4) h)
  | succ n ih => exact acc_step m c ⟨n + 1, hn⟩ (fun _ => ih (Nat.lt_of_succ_lt hn))

end Cert.KernelIdeal.Hand

end
-- ==== Proof.KI.Final.lean ====
/-
  What the two accumulator arrays hold when the region ends: at every position of cloud b's 8×128 block, cloud b's
  whole pair sum, and its whole cross sum.  The block of cloud b is written back once, after the cloud's last tile
  (point 4·b + 3), when the accumulators hold the sums over all four tiles; the 32 blocks tile the array.
-/
import proofs.«136958_j60129542698_1_alg».proof.Proof.KI.Acc
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The block indices of the two accumulator windows, decided over the grid: point t's block is cloud t / 4's. -/
theorem idx_acc : ∀ t : Fin cfg0.N,
    (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = 0 ∧ win0_3.index t (2 : Fin 3) = 0) :=
  (by decide +kernel : ∀ t : Fin grid0.N,
    (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = 0 ∧ win0_3.index t (2 : Fin 3) = 0))

/-- The sum of the four tiles' shares, listed by number, is the cloud's pair sum. -/
theorem sum_pyyN (x : Cert.Spec.SX.Idx → EReal) (b : Fin 32) :
    ∑ k ∈ Finset.range 4, pyyN x b k = Cert.Spec.yy x b := by
  rw [Cert.Spec.yy_eq_tiles, Finset.sum_range, Fin.sum_univ_four, Fin.sum_univ_four]
  simp only [pyyN]
  rfl

theorem sum_pxyN (x : Cert.Spec.SX.Idx → EReal) (b : Fin 32) :
    ∑ k ∈ Finset.range 4, pxyN x b k = Cert.Spec.xy x b := by
  rw [Cert.Spec.xy_eq_tiles, Finset.sum_range, Fin.sum_univ_four, Fin.sum_univ_four]
  simp only [pxyN]
  rfl

/-- What a cloud's last point writes back from the first accumulator is the cloud's block of the pair-sum array. -/
theorem flushed2_eq (c : Dev nD) (t : Fin cfg0.N) (hf : (cfg0.win 2).flush t = true) :
    (dats m 0 c).flushed 2 t
      = ((cfg0.win 2).blk t).view.read (Elt Ideal) (fun y : S32x8x128.Idx => Cert.Spec.yy (xin m c) (y 0)) := by
  have h3 : t.val % 4 = 3 := (flush0_2 t).mp hf
  show (cfg0.win 2).cut (grid0.coords t) ((dats m 0 c).after 2 t) = _
  rw [after0_2, acc_inv]
  funext j
  obtain ⟨⟨e0, e1, e2⟩, -⟩ := idx_acc t
  have hb : (((cfg0.win 2).blk t).view.emb j) 0 = cloudOf t := by
    apply Fin.ext
    show win0_2.index t (0 : Fin 3) * 1 + 1 * (j 0).val = t.val / 4
    have hj : (j 0).val < 1 := (j 0).isLt
    omega
  show (∑ k ∈ Finset.range (t.val % 4 + 1), pyyN (xin m c) (cloudOf t) k) = Cert.Spec.yy (xin m c) ((((cfg0.win 2).blk t).view.emb j) 0)
  rw [hb, h3, sum_pyyN]

/-- What a cloud's last point writes back from the second accumulator is the cloud's block of the cross-sum array. -/
theorem flushed3_eq (c : Dev nD) (t : Fin cfg0.N) (hf : (cfg0.win 3).flush t = true) :
    (dats m 0 c).flushed 3 t
      = ((cfg0.win 3).blk t).view.read (Elt Ideal) (fun y : S32x8x128.Idx => Cert.Spec.xy (xin m c) (y 0)) := by
  have h3 : t.val % 4 = 3 := (flush0_3 t).mp hf
  show (cfg0.win 3).cut (grid0.coords t) ((dats m 0 c).after 3 t) = _
  rw [after0_3, acc_inv]
  funext j
  obtain ⟨-, e0, e1, e2⟩ := idx_acc t
  have hb : (((cfg0.win 3).blk t).view.emb j) 0 = cloudOf t := by
    apply Fin.ext
    show win0_3.index t (0 : Fin 3) * 1 + 1 * (j 0).val = t.val / 4
    have hj : (j 0).val < 1 := (j 0).isLt
    omega
  show (∑ k ∈ Finset.range (t.val % 4 + 1), pxyN (xin m c) (cloudOf t) k) = Cert.Spec.xy (xin m c) ((((cfg0.win 3).blk t).view.emb j) 0)
  rw [hb, h3, sum_pxyN]

/-- An index of the pair-sum array is in point t's block iff each coordinate is in the block's range on its axis. -/
theorem mem_blk2 (t : Fin cfg0.N) (i : S32x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0_0).slice (win0_2.rect t)).set ↔ _
  rw [View.set_slice_whole, Rect.mem_set_unit]
  exact Iff.rfl

theorem mem_blk3 (t : Fin cfg0.N) (i : S32x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v0_1).slice (win0_3.rect t)).set ↔ _
  rw [View.set_slice_whole, Rect.mem_set_unit]
  exact Iff.rfl

/-- The last point of cloud b. -/
def lastOf (b : Fin 32) : Fin cfg0.N := ⟨4 * b.val + 3, by have := b.isLt; have h : cfg0.N = 128 := N_0; omega⟩

/-- Every index of the pair-sum array is in the block of its cloud's last point, which writes back. -/
theorem cover2 (i : S32x8x128.Idx) :
    ∃ t : Fin cfg0.N, (cfg0.win 2).flush t = true ∧ i ∈ ((cfg0.win 2).blk t).view.set := by
  have h0 : (i 0).val < 32 := (i 0).isLt
  have h1 : (i 1).val < 8 := (i 1).isLt
  have h2 : (i 2).val < 128 := (i 2).isLt
  refine ⟨lastOf (i 0), (flush0_2 _).mpr (by show (4 * (i 0).val + 3) % 4 = 3; omega), ?_⟩
  rw [mem_blk2]
  obtain ⟨⟨e0, e1, e2⟩, -⟩ := idx_acc (lastOf (i 0))
  have ev : (lastOf (i 0)).val = 4 * (i 0).val + 3 := rfl
  intro a
  match a with
  | ⟨0, _⟩ => show win0_2.index (lastOf (i 0)) (0 : Fin 3) * 1 ≤ (i 0).val ∧ (i 0).val < win0_2.index (lastOf (i 0)) (0 : Fin 3) * 1 + 1; omega
  | ⟨1, _⟩ => show win0_2.index (lastOf (i 0)) (1 : Fin 3) * 8 ≤ (i 1).val ∧ (i 1).val < win0_2.index (lastOf (i 0)) (1 : Fin 3) * 8 + 8; omega
  | ⟨2, _⟩ => show win0_2.index (lastOf (i 0)) (2 : Fin 3) * 128 ≤ (i 2).val ∧ (i 2).val < win0_2.index (lastOf (i 0)) (2 : Fin 3) * 128 + 128; omega

theorem cover3 (i : S32x8x128.Idx) :
    ∃ t : Fin cfg0.N, (cfg0.win 3).flush t = true ∧ i ∈ ((cfg0.win 3).blk t).view.set := by
  have h0 : (i 0).val < 32 := (i 0).isLt
  have h1 : (i 1).val < 8 := (i 1).isLt
  have h2 : (i 2).val < 128 := (i 2).isLt
  refine ⟨lastOf (i 0), (flush0_3 _).mpr (by show (4 * (i 0).val + 3) % 4 = 3; omega), ?_⟩
  rw [mem_blk3]
  obtain ⟨-, e0, e1, e2⟩ := idx_acc (lastOf (i 0))
  have ev : (lastOf (i 0)).val = 4 * (i 0).val + 3 := rfl
  intro a
  match a with
  | ⟨0, _⟩ => show win0_3.index (lastOf (i 0)) (0 : Fin 3) * 1 ≤ (i 0).val ∧ (i 0).val < win0_3.index (lastOf (i 0)) (0 : Fin 3) * 1 + 1; omega
  | ⟨1, _⟩ => show win0_3.index (lastOf (i 0)) (1 : Fin 3) * 8 ≤ (i 1).val ∧ (i 1).val < win0_3.index (lastOf (i 0)) (1 : Fin 3) * 8 + 8; omega
  | ⟨2, _⟩ => show win0_3.index (lastOf (i 0)) (2 : Fin 3) * 128 ≤ (i 2).val ∧ (i 2).val < win0_3.index (lastOf (i 0)) (2 : Fin 3) * 128 + 128; omega

theorem final2 (c : Dev nD) (y : S32x8x128.Idx) :
    ((dats m 0 c).arrAt 2 cfg0.N : S32x8x128.Idx → EReal) y = Cert.Spec.yy (xin m c) (y 0) := by
  exact congrFun ((dats m 0 c).arrAt_eq_of_cover 2 (fun y : S32x8x128.Idx => Cert.Spec.yy (xin m c) (y 0))
    (flushed2_eq m c) cover2) y

theorem final3 (c : Dev nD) (y : S32x8x128.Idx) :
    ((dats m 0 c).arrAt 3 cfg0.N : S32x8x128.Idx → EReal) y = Cert.Spec.xy (xin m c) (y 0) := by
  exact congrFun ((dats m 0 c).arrAt_eq_of_cover 3 (fun y : S32x8x128.Idx => Cert.Spec.xy (xin m c) (y 0))
    (flushed3_eq m c) cover3) y

end Cert.KernelIdeal.Hand

end
-- ==== Proof.KI.Tail.lean ====
/-
  The host operations after the region, read at the extended reals: from the two accumulator arrays they take the
  entry (b, 0, 0) of each cloud's block and combine them into the estimate  c₀ + yy/c_K − (c₁·xy)·c₂.
-/
import proofs.«136958_j60129542698_1_alg».proof.Proof.KI.Final
import Idealize.ShloMosaic.Lib.StableHlo.Run
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Cutting the entries (b, 0, 0) out of a 32 × 8 × 128 array and listing them as a vector: entry b is the array
    at (b, 0, 0). -/
theorem slice_reshape_at {α : Type} (A : S32x8x128.Idx → α) (hs : S32x8x128.Slices ![0, 0, 0] S32x1x1)
    (hc : S32x1x1.ShapeCasts S32) (b : Fin 32) :
    shapeCast S32 (extractStridedSlice S32x1x1 ![0, 0, 0] A hs) hc (ix1 b) = A (ix3 b 0 0) := by
  refine (shapeCast_apply _ hc (ix1 b) (ix3 b 0 0) ?_).trans ?_
  · rw [Shape.rowMajor_val_three, Shape.rowMajor_val_one]
    show (b.val * 1 + 0) * 1 + 0 = b.val
    omega
  · exact extractStridedSlice_apply ![0, 0, 0] A hs (ix3 b 0 0) (ix3 b 0 0) (fun a => match a with
      | ⟨0, _⟩ => by show b.val = 0 + b.val; omega
      | ⟨1, _⟩ => rfl
      | ⟨2, _⟩ => rfl)

/-- The result buffer after the host operations, from the exit valuation, is the estimate of the input array. -/
theorem tail_val (c : Dev nD) :
    (StableHlo.after ([hostOps1] : List (List (HloOp τ sig (Elt Ideal)))).flatten (VN m c) (Proc.devRef .tc main_v13) : S32.Idx → EReal)
      = Cert.Spec.G (xin m c) := by
  have h2 : VN m c (Proc.devRef .tc main_v0_0) = (dats m 0 c).arrAt 2 cfg0.N := (VN_arr m c 2).symm
  have h3 : VN m c (Proc.devRef .tc main_v0_1) = (dats m 0 c).arrAt 3 cfg0.N := (VN_arr m c 3).symm
  simp only [List.flatten_cons, List.flatten_nil, List.append_nil]
  after_results
  rw [h2, h3]
  funext i
  obtain ⟨b, rfl⟩ : ∃ b : Fin 32, i = ix1 b := ⟨i 0, eq_ix1 i⟩
  have e2 := slice_reshape_at ((dats m 0 c).arrAt 2 cfg0.N : S32x8x128.Idx → EReal) slices_S32x8x128_S32x1x1_0_0_0 shapeCasts_S32x1x1_S32 b
  have e3 := slice_reshape_at ((dats m 0 c).arrAt 3 cfg0.N : S32x8x128.Idx → EReal) slices_S32x8x128_S32x1x1_0_0_0 shapeCasts_S32x1x1_S32 b
  rw [final2] at e2
  rw [final3] at e3
  show (Ideal.ofBits .f32 0x261B8BD8#32
        + Ideal.div (shapeCast S32 (extractStridedSlice S32x1x1 ![0, 0, 0] ((dats m 0 c).arrAt 2 cfg0.N : S32x8x128.Idx → EReal)
            slices_S32x8x128_S32x1x1_0_0_0) shapeCasts_S32x1x1_S32 (ix1 b)) (Ideal.ofBits .f32 0x4A7FE000#32))
      - (Ideal.ofBits .f32 0x3A800000#32
          * shapeCast S32 (extractStridedSlice S32x1x1 ![0, 0, 0] ((dats m 0 c).arrAt 3 cfg0.N : S32x8x128.Idx → EReal)
            slices_S32x8x128_S32x1x1_0_0_0) shapeCasts_S32x1x1_S32 (ix1 b))
        * Ideal.ofBits .f32 0x2F800000#32 = _
  rw [e2, e3]
  rfl

end Cert.KernelIdeal.Hand

end
-- ==== Proof.KI.Value.lean ====
/-
  The idealized kernel program's run with its result named: every weakly fair execution terminates, the result
  buffer holds the estimate of the input array, and the input array is unchanged.
-/
import proofs.«136958_j60129542698_1_alg».proof.Proof.KI.Tail

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem main_v13_rest : main_v13 ∈ Pipeline.restRefs sig spec0 := by decide

theorem run_value : θ_run defs (onTc (τ := τ) (main (F := Ideal))) ⟨m, fun _ => 0, ρ⟩ (fun r => ∀ c : Dev nD,
      r.2.mem ((c.tc : Thread nD τ).loc main_v13) = Cert.Spec.G (xin m c)
      ∧ r.2.mem ((c.tc : Thread nD τ).loc main_arg0) = m ((c.tc : Thread nD τ).loc main_arg0)) :=
  (θ_run defs _ _).mono (fun _ h c => ⟨((h c).2 main_v13 main_v13_rest).trans (tail_val m c),
      ((h c).1 0).trans (((dats m 0 c).arrAt_in 0 rfl _).trans ((A_eq m c 0).trans (V_main_arg0 m c)))⟩) (run_main m ρ)

end Cert.KernelIdeal.Hand

end
-- ==== Proof.RefValue.lean ====
/-
  The reference program computes the estimate `Cert.Spec.G`: read one operation at a time, its result at cloud `b`
  is  c₀ + (Σ_{p,j} exp(−(sq p + sq j − 2·gram p j)/2)) / c_K − (c₁ · Σ_p exp(−sq p / 4)) · c₂ .
-/
import proofs.«136958_j60129542698_1_alg».proof.Proof.Gen.ReferenceIdeal.Read
import proofs.«136958_j60129542698_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## A sum over the two point axes, read at a cloud -/

/-- Over a rank-3 index set, the indices whose first coordinate is `b` are exactly the triples `(b, p, j)`, one for each
    pair `(p, j)`: a sum over them is the double sum over the pairs. -/
theorem sum_filter_fst {n0 n1 n2 : Nat} (x : (⟨3, ![n0, n1, n2]⟩ : Shape).Idx → EReal) (b : Fin n0) :
    ∑ i ∈ Finset.univ.filter (fun i : (⟨3, ![n0, n1, n2]⟩ : Shape).Idx => (i 0).val = b.val), x i
      = ∑ p : Fin n1, ∑ j : Fin n2, x (ix3 b p j) := by
  refine Eq.trans ?_ (Fintype.sum_prod_type' (fun p j => x (ix3 b p j)))
  symm
  refine Finset.sum_bij (fun pq _ => ix3 b pq.1 pq.2) ?_ ?_ ?_ ?_
  · intro pq _
    exact Finset.mem_filter.mpr ⟨Finset.mem_univ _, rfl⟩
  · intro a _ a' _ hEq
    exact Prod.ext (congrFun hEq 1) (congrFun hEq 2)
  · intro i hi
    have h0 : (i 0 : Fin n0) = b := Fin.ext (Finset.mem_filter.mp hi).2
    refine ⟨(i 1, i 2), Finset.mem_univ _, ?_⟩
    funext a
    match a with
    | ⟨0, _⟩ => exact h0.symm
    | ⟨1, _⟩ => rfl
    | ⟨2, _⟩ => rfl
  · intro pq _
    rfl

/-- Summing a 32 × 2048 × 2048 array over its last two axes: at cloud `b` the result is the initial value plus the
    double sum over the pairs `(p, j)` of the entries `(b, p, j)`. Dropping the last two coordinates of an index keeps
    its first, so the indices that reduce to `b` are those whose first coordinate is `b`. -/
theorem hostReduceAdd_pairs (x : S32x2048x2048.Idx → EReal) (init : EReal) (b : Fin 32) :
    Ideal.hostReduceAdd reducesTo_S32x2048x2048_S32_d1_2 x init (ix1 b)
      = init + ∑ p : Fin 2048, ∑ j : Fin 2048, x (ix3 b p j) := by
  unfold Ideal.hostReduceAdd
  refine congrArg (init + ·) ?_
  refine Eq.trans ?_ (sum_filter_fst x b)
  refine Finset.sum_congr (Finset.filter_congr fun i _ => ?_) fun _ _ => rfl
  constructor
  · intro hd
    exact (Shape.ReducesTo.drop_apply_val_of_eq reducesTo_S32x2048x2048_S32_d1_2 i 0 0).symm.trans
        (congrArg Fin.val (congrFun hd 0))
  · intro h0
    funext a
    match a with
    | ⟨0, _⟩ => exact Fin.ext ((Shape.ReducesTo.drop_apply_val_of_eq reducesTo_S32x2048x2048_S32_d1_2 i 0 0).trans h0)

/-! ## The stages, read at coordinates -/

/-- The squared norms: the row sums of the entrywise squares. -/
theorem sq_stage (x0 : (⟨S32x2048x64, .f32⟩ : BufTy).Contents (Elt Ideal)) (b : Fin 32) (p : Fin 2048) :
    val_main_v1 (F := Ideal) x0 (ix2 b p) = Cert.Spec.sq x0 b p := by
  have e : ∀ k : Fin 64, idx_main_v1 (ix2 b p) k = ix3 b p k := fun k => funext fun a => Fin.ext (by
    match a with | ⟨0, _⟩ => rfl | ⟨1, _⟩ => rfl | ⟨2, _⟩ => rfl)
  rw [val_main_v1_apply, val_main_cst_apply]
  simp only [val_main_v0_apply, e, Ideal.ofBits_def, Ideal.mulf_def, Ideal.ofBits_zero_f32, zero_add]
  rfl

/-- The inner products: the batched product of the array with itself over the last axis. -/
theorem gram_stage (x0 : (⟨S32x2048x64, .f32⟩ : BufTy).Contents (Elt Ideal)) (b : Fin 32) (p j : Fin 2048) :
    val_main_v2 (F := Ideal) x0 (ix3 b p j) = Cert.Spec.gram x0 b p j := by
  have el : ∀ k : Fin 64, lidx_main_v2 (ix3 b p j) k = ix3 b p k := fun k => funext fun a => Fin.ext (by
    match a with | ⟨0, _⟩ => rfl | ⟨1, _⟩ => rfl | ⟨2, _⟩ => rfl)
  have er : ∀ k : Fin 64, ridx_main_v2 (ix3 b p j) k = ix3 b j k := fun k => funext fun a => Fin.ext (by
    match a with | ⟨0, _⟩ => rfl | ⟨1, _⟩ => rfl | ⟨2, _⟩ => rfl)
  rw [val_main_v2_apply]
  simp only [el, er]
  rfl

/-- The Gaussian kernel of a pair. -/
theorem ker_stage (x0 : (⟨S32x2048x64, .f32⟩ : BufTy).Contents (Elt Ideal)) (b : Fin 32) (p j : Fin 2048) :
    val_main_v14 (F := Ideal) x0 (ix3 b p j) = Cert.Spec.ker x0 b p j := by
  have e5 : idx_main_v3 (idx_main_v5 (ix3 b p j)) = ix2 b p := funext fun a => Fin.ext (by
    match a with | ⟨0, _⟩ => rfl | ⟨1, _⟩ => rfl)
  have e6 : idx_main_v4 (idx_main_v6 (ix3 b p j)) = ix2 b j := funext fun a => Fin.ext (by
    match a with | ⟨0, _⟩ => rfl | ⟨1, _⟩ => rfl)
  rw [val_main_v14_apply, val_main_v13_apply, val_main_v12_apply, val_main_cst_1_apply, val_main_v11_apply,
    val_main_v10_apply, val_main_v9_apply, val_main_v8_apply, val_main_cst_0_apply, val_main_v7_apply,
    val_main_v6_apply, val_main_v5_apply, val_main_v4_apply, val_main_v3_apply, e5, e6, sq_stage, sq_stage,
    gram_stage]
  simp only [Ideal.hostUnary_exp_def, Ideal.hostDivf_def, Ideal.hostNegf_def, Ideal.negf_def, Ideal.subf_def,
    Ideal.addf_def, Ideal.mulf_def, Ideal.ofBits_def]
  rfl

/-- The cross term of a point. -/
theorem cross_stage (x0 : (⟨S32x2048x64, .f32⟩ : BufTy).Contents (Elt Ideal)) (b : Fin 32) (p : Fin 2048) :
    val_main_v18 (F := Ideal) x0 (ix2 b p) = Cert.Spec.cross x0 b p := by
  rw [val_main_v18_apply, val_main_v17_apply, val_main_v16_apply, val_main_cst_2_apply, val_main_v15_apply,
    sq_stage]
  simp only [Ideal.hostUnary_exp_def, Ideal.hostDivf_def, Ideal.hostNegf_def, Ideal.negf_def, Ideal.ofBits_def]
  rfl

/-- The kernel summed over all ordered pairs of a cloud. -/
theorem yy_stage (x0 : (⟨S32x2048x64, .f32⟩ : BufTy).Contents (Elt Ideal)) (b : Fin 32) :
    val_main_v19 (F := Ideal) x0 (ix1 b) = Cert.Spec.yy x0 b := by
  unfold val_main_v19
  simp only [Host.reduceAdd, Ideal.hostReduceAdd_def]
  rw [hostReduceAdd_pairs, val_main_cst_3_apply]
  simp only [ker_stage, Ideal.ofBits_def, Ideal.ofBits_zero_f32, zero_add]
  rfl

/-- The cross term summed over the points of a cloud. -/
theorem xy_stage (x0 : (⟨S32x2048x64, .f32⟩ : BufTy).Contents (Elt Ideal)) (b : Fin 32) :
    val_main_v22 (F := Ideal) x0 (ix1 b) = Cert.Spec.xy x0 b := by
  have e : ∀ k : Fin 2048, idx_main_v22 (ix1 b) k = ix2 b k := fun k => funext fun a => Fin.ext (by
    match a with | ⟨0, _⟩ => rfl | ⟨1, _⟩ => rfl)
  rw [val_main_v22_apply, val_main_cst_5_apply]
  simp only [e, cross_stage, Ideal.ofBits_def, Ideal.ofBits_zero_f32, zero_add]
  rfl

/-- The reference's last stage, as a function of the input array, is the estimate. -/
theorem ref_is_G (x0 : (⟨S32x2048x64, .f32⟩ : BufTy).Contents (Elt Ideal)) :
    val_main_v29 (F := Ideal) x0 = Cert.Spec.G x0 := by
  funext i
  obtain ⟨b, rfl⟩ : ∃ b : Fin 32, i = ix1 b := ⟨i 0, eq_ix1 i⟩
  rw [val_main_v29_apply, val_main_v28_apply, val_main_v27_apply, val_main_cst_8_apply, val_main_v26_apply,
    val_main_v25_apply, val_main_cst_7_apply, val_main_v24_apply, val_main_v23_apply, val_main_cst_6_apply,
    val_main_v21_apply, val_main_v20_apply, val_main_cst_4_apply, yy_stage, xy_stage]
  simp only [Ideal.hostDivf_def, Ideal.subf_def, Ideal.addf_def, Ideal.mulf_def, Ideal.ofBits_def]
  rfl

end Cert.ReferenceIdeal.RefValue

end
-- ==== Proof.lean ====
/-
  The certificate of the pairwise Gaussian-kernel discrepancy kernel against its plain reference.

  Both programs compute, for each of 32 clouds of 2048 points in dimension 64,
      c₀ + (Σ_{p,j} exp(−(|x_p|² + |x_j|² − 2 x_p·x_j)/2)) / c_K − (c₁ · Σ_p exp(−|x_p|²/4)) · c₂ ,
  the reference from whole arrays on the host, the kernel tile by tile: 4 tiles of 512 rows per cloud, each grid
  point adding its tile's shares of the two sums into two accumulator blocks that are reset at a cloud's first tile
  and written back after its last, the scalars combined by host operations after the region.  On the extended reals
  the two agree because a sum may be grouped by tiles (addition is commutative and associative), a product of
  matrices into a zero accumulator is the host's contraction, a change of float format is the identity, and
  0 − z = −z; the precondition is not used.

  The frames: the kernel programs (word level and idealized) by the body's two control cases run once each, the
  accumulators' contents defined by recursion on the grid point, and a launch whose two input windows share the one
  input array; the reference by its run.
-/
import proofs.«136958_j60129542698_1_alg».proof.Defs
import proofs.«136958_j60129542698_1_alg».proof.Proof.Gen.Kernel
import proofs.«136958_j60129542698_1_alg».proof.Proof.Gen.KernelIdeal
import proofs.«136958_j60129542698_1_alg».proof.Proof.Gen.ReferenceIdeal
import proofs.«136958_j60129542698_1_alg».proof.Proof.Gen.ReferenceIdeal.Run
import proofs.«136958_j60129542698_1_alg».proof.Proof.Gen.Pre_finite_inputs
import proofs.«136958_j60129542698_1_alg».proof.Proof.K.Frame
import proofs.«136958_j60129542698_1_alg».proof.Proof.KI.Value
import proofs.«136958_j60129542698_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs, faults nowhere and leaves its input unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories that agree on the input, the idealized kernel's result and the reference's are both the estimate
    `Cert.Spec.G` of the input array. -/
theorem algebraic : Cert.algebraic_KernelIdeal_ReferenceIdeal := by
  intro m ρ m' ρ' _ hagree
  refine ⟨fun c => Cert.Spec.G (Cert.KernelIdeal.Hand.xin m c), Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_is_G, hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
